-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S3x800000 : Shape := ⟨2, ![3, 800000]⟩
abbrev S3x2x800000 : Shape := ⟨3, ![3, 2, 800000]⟩
abbrev S_ : Shape := ⟨0, ![]⟩
abbrev S3x1x800000 : Shape := ⟨3, ![3, 1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x800000 : S_.BroadcastsInDim S3x800000 (![] : Fin 0 → Fin S3x800000.rank)
  reducesTo_S3x800000_S_d0_1 : S3x800000.ReducesTo [0, 1] S_
  slices_S3x2x800000_S3x1x800000_0_0_0 : S3x2x800000.Slices ![0, 0, 0] S3x1x800000
  shapeCasts_S3x1x800000_S3x800000 : S3x1x800000.ShapeCasts S3x800000

variable [Facts]

def fn_part1 {F : FTy → Type} [FloatOps F] (main_arg4 : IVec S3x2x800000 32) (main_v13 : IVec S_ 1) (main_v16 : IVec S3x800000 1) : IVec S_ 1 :=
  let main_c_5 : IVec S_ 1 := constantI S_ 1 1#1
  let main_v17 : IVec S_ 1 := (fun x v => Host.reduce IntOp.andi x v reducesTo_S3x800000_S_d0_1 h_S_) main_v16 main_c_5
  let main_v18 : IVec S_ 1 := andi main_v13 main_v17
  let main_v19 : IVec S3x1x800000 32 := (extractStridedSlice S3x1x800000 ![0, 0, 0] · slices_S3x2x800000_S3x1x800000_0_0_0) main_arg4
  let main_v20 : IVec S3x800000 32 := shapeCast S3x800000 main_v19 shapeCasts_S3x1x800000_S3x800000
  let main_c_6 : IVec S_ 32 := constantI S_ 32 4294917296#32
  let main_v21 : IVec S3x800000 32 := broadcastInDim S3x800000 ![] bcast_S_S3x800000 main_c_6
  let main_v22 : IVec S3x800000 1 := cmpi .sge main_v20 main_v21
  let main_v23 : IVec S3x1x800000 32 := (extractStridedSlice S3x1x800000 ![0, 0, 0] · slices_S3x2x800000_S3x1x800000_0_0_0) main_arg4
  let main_v24 : IVec S3x800000 32 := shapeCast S3x800000 main_v23 shapeCasts_S3x1x800000_S3x800000
  let main_c_7 : IVec S_ 32 := constantI S_ 32 50000#32
  let main_v25 : IVec S3x800000 32 := broadcastInDim S3x800000 ![] bcast_S_S3x800000 main_c_7
  let main_v26 : IVec S3x800000 1 := cmpi .slt main_v24 main_v25
  let main_v27 : IVec S3x800000 1 := andi main_v22 main_v26
  let main_c_8 : IVec S_ 1 := constantI S_ 1 1#1
  let main_v28 : IVec S_ 1 := (fun x v => Host.reduce IntOp.andi x v reducesTo_S3x800000_S_d0_1 h_S_) main_v27 main_c_8
  let main_v29 : IVec S_ 1 := andi main_v18 main_v28
  main_v29

def fn {F : FTy → Type} [FloatOps F] (main_arg0 : FVec F S50000x128 .f32) (main_arg1 : FVec F S3x128x128 .f32) (main_arg2 : FVec F S3x128 .f32) (main_arg3 : FVec F S3x800000 .f32) (main_arg4 : IVec S3x2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x800000 .f32 := Host.absf main_arg3
  let main_cst_4 : FVec F S_ .f32 := constant S_ .f32 0x7F800000#32
  let main_v15 : FVec F S3x800000 .f32 := broadcastInDim S3x800000 ![] bcast_S_S3x800000 main_cst_4
  let main_v16 : IVec S3x800000 1 := cmpf .olt main_v14 main_v15
  fn_part1 (F := F) main_arg4 main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S3x800000 : Shape := ⟨2, ![3, 800000]⟩
abbrev S3x2x800000 : Shape := ⟨3, ![3, 2, 800000]⟩
abbrev S3x50000x128 : Shape := ⟨3, ![3, 50000, 128]⟩
abbrev S5000x128 : Shape := ⟨2, ![5000, 128]⟩
abbrev S1x128x128 : Shape := ⟨3, ![1, 128, 128]⟩
abbrev S1x5000x128 : Shape := ⟨3, ![1, 5000, 128]⟩
abbrev S128x128 : Shape := ⟨2, ![128, 128]⟩
abbrev S3x1x800000 : Shape := ⟨3, ![3, 1, 800000]⟩
abbrev S1x50000x128 : Shape := ⟨3, ![1, 50000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S128 : Shape := ⟨1, ![128]⟩
abbrev S1x128 : Shape := ⟨2, ![1, 128]⟩
abbrev S3x5000x128 : Shape := ⟨3, ![3, 5000, 128]⟩

abbrev nBuf : Space → Nat
  | .hbm => 132
  | .vmem => 11
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S3x800000, .f32⟩
  | 4 => ⟨S3x2x800000, .i32⟩
  | 5 => ⟨S3x50000x128, .f32⟩
  | 6 => ⟨S3x1x800000, .i32⟩
  | 7 => ⟨S3x800000, .i32⟩
  | 8 => ⟨S3x1x800000, .i32⟩
  | 9 => ⟨S3x800000, .i32⟩
  | 10 => ⟨S1x50000x128, .f32⟩
  | 11 => ⟨S50000x128, .f32⟩
  | 12 => ⟨S1x800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S1, .i32⟩
  | 23 => ⟨S_, .i32⟩
  | 24 => ⟨S800000x1, .i32⟩
  | 25 => ⟨S800000x1, .i1⟩
  | 26 => ⟨S1x1, .i32⟩
  | 27 => ⟨S800000x1, .i32⟩
  | 28 => ⟨S800000x1, .i1⟩
  | 29 => ⟨S800000x1, .i1⟩
  | 30 => ⟨S_, .i1⟩
  | 31 => ⟨S800000, .i1⟩
  | 32 => ⟨S800000x128, .f32⟩
  | 33 => ⟨S800000x128, .i1⟩
  | 34 => ⟨S_, .f32⟩
  | 35 => ⟨S800000x128, .f32⟩
  | 36 => ⟨S800000x128, .f32⟩
  | 37 => ⟨S1x800000, .f32⟩
  | 38 => ⟨S800000, .f32⟩
  | 39 => ⟨S800000x1, .f32⟩
  | 40 => ⟨S800000x128, .f32⟩
  | 41 => ⟨S800000x128, .f32⟩
  | 42 => ⟨S1x800000, .i32⟩
  | 43 => ⟨S800000, .i32⟩
  | 44 => ⟨S_, .f32⟩
  | 45 => ⟨S50000x128, .f32⟩
  | 46 => ⟨S800000x1, .i32⟩
  | 47 => ⟨S50000x128, .f32⟩
  | 48 => ⟨S1x50000x128, .f32⟩
  | 49 => ⟨S50000x128, .f32⟩
  | 50 => ⟨S1x800000, .i32⟩
  | 51 => ⟨S800000, .i32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S1, .i32⟩
  | 61 => ⟨S_, .i32⟩
  | 62 => ⟨S800000x1, .i32⟩
  | 63 => ⟨S800000x1, .i1⟩
  | 64 => ⟨S1x1, .i32⟩
  | 65 => ⟨S800000x1, .i32⟩
  | 66 => ⟨S800000x1, .i1⟩
  | 67 => ⟨S800000x1, .i1⟩
  | 68 => ⟨S_, .i1⟩
  | 69 => ⟨S800000, .i1⟩
  | 70 => ⟨S800000x128, .f32⟩
  | 71 => ⟨S800000x128, .i1⟩
  | 72 => ⟨S_, .f32⟩
  | 73 => ⟨S800000x128, .f32⟩
  | 74 => ⟨S800000x128, .f32⟩
  | 75 => ⟨S1x800000, .f32⟩
  | 76 => ⟨S800000, .f32⟩
  | 77 => ⟨S800000x1, .f32⟩
  | 78 => ⟨S800000x128, .f32⟩
  | 79 => ⟨S800000x128, .f32⟩
  | 80 => ⟨S1x800000, .i32⟩
  | 81 => ⟨S800000, .i32⟩
  | 82 => ⟨S_, .f32⟩
  | 83 => ⟨S50000x128, .f32⟩
  | 84 => ⟨S800000x1, .i32⟩
  | 85 => ⟨S50000x128, .f32⟩
  | 86 => ⟨S1x50000x128, .f32⟩
  | 87 => ⟨S50000x128, .f32⟩
  | 88 => ⟨S1x800000, .i32⟩
  | 89 => ⟨S800000, .i32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S1, .i32⟩
  | 99 => ⟨S_, .i32⟩
  | 100 => ⟨S800000x1, .i32⟩
  | 101 => ⟨S800000x1, .i1⟩
  | 102 => ⟨S1x1, .i32⟩
  | 103 => ⟨S800000x1, .i32⟩
  | 104 => ⟨S800000x1, .i1⟩
  | 105 => ⟨S800000x1, .i1⟩
  | 106 => ⟨S_, .i1⟩
  | 107 => ⟨S800000, .i1⟩
  | 108 => ⟨S800000x128, .f32⟩
  | 109 => ⟨S800000x128, .i1⟩
  | 110 => ⟨S_, .f32⟩
  | 111 => ⟨S800000x128, .f32⟩
  | 112 => ⟨S800000x128, .f32⟩
  | 113 => ⟨S1x800000, .f32⟩
  | 114 => ⟨S800000, .f32⟩
  | 115 => ⟨S800000x1, .f32⟩
  | 116 => ⟨S800000x128, .f32⟩
  | 117 => ⟨S800000x128, .f32⟩
  | 118 => ⟨S1x800000, .i32⟩
  | 119 => ⟨S800000, .i32⟩
  | 120 => ⟨S_, .f32⟩
  | 121 => ⟨S50000x128, .f32⟩
  | 122 => ⟨S800000x1, .i32⟩
  | 123 => ⟨S50000x128, .f32⟩
  | 124 => ⟨S1x50000x128, .f32⟩
  | 125 => ⟨S1x50000x128, .f32⟩
  | 126 => ⟨S1x50000x128, .f32⟩
  | 127 => ⟨S3x50000x128, .f32⟩
  | _ => ⟨S50000x128, .f32⟩

abbrev hbmTy0_1 (i : Nat) : BufTy := match i % 128 with
  | 0 => ⟨S_, .f32⟩
  | 1 => ⟨S128, .f32⟩
  | 2 => ⟨S1x128, .f32⟩
  | 3 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S1x128x128, .f32⟩
  | .local _ .vmem, ⟨3, _⟩ => ⟨S1x128x128, .f32⟩
  | .local _ .vmem, ⟨4, _⟩ => ⟨S1x5000x128, .f32⟩
  | .local _ .vmem, ⟨5, _⟩ => ⟨S1x5000x128, .f32⟩
  | .local _ .vmem, ⟨6, _⟩ => ⟨S3x5000x128, .f32⟩
  | .local _ .vmem, ⟨7, _⟩ => ⟨S3x5000x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_cst_0 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_call2_c : Ref sig .tc := ⟨.hbm, 90, rfl⟩
abbrev main_call2_v0 : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_c_1 : Ref sig .tc := ⟨.hbm, 98, rfl⟩
abbrev main_call2_c_2 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_3 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_call2_cst : Ref sig .tc := ⟨.hbm, 110, rfl⟩
abbrev main_call2_v15 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_cst_1 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_cst_2 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![10, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3x5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  shapeCasts_S5000x128_S1x5000x128 : S5000x128.ShapeCasts S1x5000x128
  slices_S3x2x800000_S3x1x800000_0_0_0 : S3x2x800000.Slices ![0, 0, 0] S3x1x800000
  shapeCasts_S3x1x800000_S3x800000 : S3x1x800000.ShapeCasts S3x800000
  slices_S3x2x800000_S3x1x800000_0_1_0 : S3x2x800000.Slices ![0, 1, 0] S3x1x800000
  slices_S3x50000x128_S1x50000x128_0_0_0 : S3x50000x128.Slices ![0, 0, 0] S1x50000x128
  shapeCasts_S1x50000x128_S50000x128 : S1x50000x128.ShapeCasts S50000x128
  slices_S3x800000_S1x800000_0_0 : S3x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x50000x128_S1x50000x128_1_0_0 : S3x50000x128.Slices ![1, 0, 0] S1x50000x128
  slices_S3x800000_S1x800000_1_0 : S3x800000.Slices ![1, 0] S1x800000
  slices_S3x50000x128_S1x50000x128_2_0_0 : S3x50000x128.Slices ![2, 0, 0] S1x50000x128
  slices_S3x800000_S1x800000_2_0 : S3x800000.Slices ![2, 0] S1x800000
  bcast_S50000x128_S1x50000x128_1_2 : S50000x128.BroadcastsInDim S1x50000x128 (![1, 2] : Fin 2 → Fin S1x50000x128.rank)
  concatenates_S1x50000x128_S1x50000x128_S1x50000x128_S3x50000x128_d0 : Shape.Concatenates [S1x50000x128, S1x50000x128, S1x50000x128] S3x50000x128 0
  reducesTo_S3x128_S128_d0 : S3x128.ReducesTo [0] S128
  shapeCasts_S128_S1x128 : S128.ShapeCasts S1x128
  inb_S3x5000x128_S1x5000x128_0_0_0 : ∀ a, (![0, 0, 0] : Fin 3 → Nat) a + S1x5000x128.size a ≤ S3x5000x128.size a
  inb_S3x5000x128_S1x5000x128_1_0_0 : ∀ a, (![1, 0, 0] : Fin 3 → Nat) a + S1x5000x128.size a ≤ S3x5000x128.size a
  inb_S3x5000x128_S1x5000x128_2_0_0 : ∀ a, (![2, 0, 0] : Fin 3 → Nat) a + S1x5000x128.size a ≤ S3x5000x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S3x128x128.size a
  hwx0_1 : ∀ i : grid0.Coords, EltTy.bits .f32 = 32 ∨ (Rect.block (s := S3x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5000x128.size a ≤ S3x50000x128.size a
  hwx0_2 : ∀ i : grid0.Coords, EltTy.bits .f32 = 32 ∨ (Rect.block (s := S3x50000x128) S1x5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x5000x128.size a ≤ S3x50000x128.size a
  hwx1_0 : ∀ i : grid1.Coords, EltTy.bits .f32 = 32 ∨ (Rect.block (s := S3x50000x128) S3x5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S3x5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S3x800000 : Shape := ⟨2, ![3, 800000]⟩
abbrev S3x2x800000 : Shape := ⟨3, ![3, 2, 800000]⟩
abbrev S_ : Shape := ⟨0, ![]⟩
abbrev S1x128x128 : Shape := ⟨3, ![1, 128, 128]⟩
abbrev S128x128 : Shape := ⟨2, ![128, 128]⟩
abbrev S1x1x800000 : Shape := ⟨3, ![1, 1, 800000]⟩
abbrev S800000 : Shape := ⟨1, ![800000]⟩
abbrev S800000x1 : Shape := ⟨2, ![800000, 1]⟩
abbrev S800000x128 : Shape := ⟨2, ![800000, 128]⟩
abbrev S1x800000 : Shape := ⟨2, ![1, 800000]⟩
abbrev S1x128 : Shape := ⟨2, ![1, 128]⟩
abbrev S128 : Shape := ⟨1, ![128]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S3x128x128, .f32⟩
  | .hbm, ⟨2, _⟩ => ⟨S3x128, .f32⟩
  | .hbm, ⟨3, _⟩ => ⟨S3x800000, .f32⟩
  | .hbm, ⟨4, _⟩ => ⟨S3x2x800000, .i32⟩
  | .hbm, ⟨5, _⟩ => ⟨S_, .f32⟩
  | .hbm, ⟨6, _⟩ => ⟨S50000x128, .f32⟩
  | .hbm, ⟨7, _⟩ => ⟨S1x128x128, .f32⟩
  | .hbm, ⟨8, _⟩ => ⟨S128x128, .f32⟩
  | .hbm, ⟨9, _⟩ => ⟨S50000x128, .f32⟩
  | .hbm, ⟨10, _⟩ => ⟨S1x1x800000, .i32⟩
  | .hbm, ⟨11, _⟩ => ⟨S800000, .i32⟩
  | .hbm, ⟨12, _⟩ => ⟨S1x1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S1x800000, .f32⟩
  | .hbm, ⟨24, _⟩ => ⟨S800000, .f32⟩
  | .hbm, ⟨25, _⟩ => ⟨S800000x1, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S1x128x128, .f32⟩
  | .hbm, ⟨39, _⟩ => ⟨S128x128, .f32⟩
  | .hbm, ⟨40, _⟩ => ⟨S50000x128, .f32⟩
  | .hbm, ⟨41, _⟩ => ⟨S1x1x800000, .i32⟩
  | .hbm, ⟨42, _⟩ => ⟨S800000, .i32⟩
  | .hbm, ⟨43, _⟩ => ⟨S1x1x800000, .i32⟩
  | .hbm, ⟨44, _⟩ => ⟨S800000, .i32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S1x800000, .f32⟩
  | .hbm, ⟨55, _⟩ => ⟨S800000, .f32⟩
  | .hbm, ⟨56, _⟩ => ⟨S800000x1, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S1x128x128, .f32⟩
  | .hbm, ⟨70, _⟩ => ⟨S128x128, .f32⟩
  | .hbm, ⟨71, _⟩ => ⟨S50000x128, .f32⟩
  | .hbm, ⟨72, _⟩ => ⟨S1x1x800000, .i32⟩
  | .hbm, ⟨73, _⟩ => ⟨S800000, .i32⟩
  | .hbm, ⟨74, _⟩ => ⟨S1x1x800000, .i32⟩
  | .hbm, ⟨75, _⟩ => ⟨S800000, .i32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S1x800000, .f32⟩
  | .hbm, ⟨86, _⟩ => ⟨S800000, .f32⟩
  | .hbm, ⟨87, _⟩ => ⟨S800000x1, .f32⟩
  | .hbm, ⟨88, _⟩ => ⟨S800000x128, .f32⟩
  | .hbm, ⟨89, _⟩ => ⟨S800000x128, .f32⟩
  | .hbm, ⟨90, _⟩ => ⟨S_, .f32⟩
  | .hbm, ⟨91, _⟩ => ⟨S50000x128, .f32⟩
  | .hbm, ⟨92, _⟩ => ⟨S800000x1, .i32⟩
  | .hbm, ⟨93, _⟩ => ⟨S50000x128, .f32⟩
  | .hbm, ⟨94, _⟩ => ⟨S50000x128, .f32⟩
  | .hbm, ⟨95, _⟩ => ⟨S1x128, .f32⟩
  | .hbm, ⟨96, _⟩ => ⟨S128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_2 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_c_5 : Ref sig .tc := ⟨.hbm, 76, rfl⟩
abbrev main_v64 : Ref sig .tc := ⟨.hbm, 77, rfl⟩
abbrev main_v65 : Ref sig .tc := ⟨.hbm, 78, rfl⟩
abbrev main_c_6 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_7 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_call0_cst : Ref sig .tc := ⟨.hbm, 100, rfl⟩
abbrev main_call0_v0 : Ref sig .tc := ⟨.hbm, 101, rfl⟩
abbrev main_v85 : Ref sig .tc := ⟨.hbm, 102, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x2x800000_S1x1x800000_0_0_0 : S3x2x800000.Slices ![0, 0, 0] S1x1x800000
  shapeCasts_S1x1x800000_S800000 : S1x1x800000.ShapeCasts S800000
  slices_S3x2x800000_S1x1x800000_0_1_0 : S3x2x800000.Slices ![0, 1, 0] S1x1x800000
  bcast_S_S800000 : S_.BroadcastsInDim S800000 (![] : Fin 0 → Fin S800000.rank)
  bcast_S800000_S800000x1_0 : S800000.BroadcastsInDim S800000x1 (![0] : Fin 1 → Fin S800000x1.rank)
  slices_S3x800000_S1x800000_0_0 : S3x800000.Slices ![0, 0] S1x800000
  shapeCasts_S1x800000_S800000 : S1x800000.ShapeCasts S800000
  bcast_S800000x1_S800000x128_0_1 : S800000x1.BroadcastsInDim S800000x128 (![0, 1] : Fin 2 → Fin S800000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x2x800000_S1x1x800000_1_0_0 : S3x2x800000.Slices ![1, 0, 0] S1x1x800000
  slices_S3x2x800000_S1x1x800000_1_1_0 : S3x2x800000.Slices ![1, 1, 0] S1x1x800000
  slices_S3x800000_S1x800000_1_0 : S3x800000.Slices ![1, 0] S1x800000
  slices_S3x128_S1x128_1_0 : S3x128.Slices ![1, 0] S1x128
  slices_S3x128x128_S1x128x128_2_0_0 : S3x128x128.Slices ![2, 0, 0] S1x128x128
  slices_S3x2x800000_S1x1x800000_2_0_0 : S3x2x800000.Slices ![2, 0, 0] S1x1x800000
  slices_S3x2x800000_S1x1x800000_2_1_0 : S3x2x800000.Slices ![2, 1, 0] S1x1x800000
  slices_S3x800000_S1x800000_2_0 : S3x800000.Slices ![2, 0] S1x800000
  slices_S3x128_S1x128_2_0 : S3x128.Slices ![2, 0] S1x128
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KProj.lean ====
/-
  The projection region (the first pallas_call): a grid of 10 × 3 points, point (r, h) reading rows
  5000·r … 5000·r + 4999 of the node features (a 5000 × 128 block) and the h-th 128 × 128 weight matrix,
  and writing their matrix product into rows 5000·r … of slab h of the 3 × 50000 × 128 result.
  Here: the blocks a point is handed, what the body leaves in the output's staging buffer as a function of
  the two input blocks, the body's run, and the pipeline's proof data with its obligation at every point.
  Stated for any float instance, at a parameter `V` for the buffer contents the region is entered with.
-/
import proofs.«426990_j39977555591181_1_alg».proof.Proof.Gen.Kernel.Launch
import proofs.«426990_j39977555591181_1_alg».proof.Proof.Gen.Kernel.Skeleton
import proofs.«426990_j39977555591181_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds their block at every point, whether the point fetched it or the block index
    stood still (the row block changes only with the first grid coordinate). -/
theorem before_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Likewise the weight matrix's staging buffer (its block changes only with the second grid coordinate). -/
theorem before_w_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole 5000 × 128 block of feature rows, the whole 1 × 128 × 128 weight block, the whole 1 × 5000 × 128 output block. -/
abbrev rX : Rect S5000x128 := Rect.unit (s := S5000x128) ![0, 0] S5000x128.size inb_S5000x128_S5000x128_0_0
abbrev rW : Rect S1x128x128 := Rect.unit (s := S1x128x128) ![0, 0, 0] S1x128x128.size inb_S1x128x128_S1x128x128_0_0_0
abbrev rO : Rect S1x5000x128 := Rect.unit (s := S1x5000x128) ![0, 0, 0] S1x5000x128.size inb_S1x5000x128_S1x5000x128_0_0_0

/-- The output's staging buffer after the body: its one store, of the product of the two loaded blocks, over the whole buffer. -/
def outBlk (x : Vec F S5000x128 .f32) (w : Vec F S1x128x128 .f32) : Vec F S1x5000x128 .f32 :=
  View.canon [⟨rO, k0_pay1 (View.ld x rX) (View.ld w rW)⟩]

/-- That store covers the buffer. -/
theorem cover_out (p : Vec F S1x5000x128 .f32) (y : S1x5000x128.Idx) :
    ∃ pc ∈ ([⟨rO, p⟩] : List (View.Piece (Elt F) S1x5000x128 .f32)), y ∈ pc.1.set :=
  View.cover_of_tiled [⟨rO, p⟩] S1x5000x128.size (by rfl) y

set_option maxHeartbeats 1000000 in
/-- The body on whole staging memrefs, the two inputs' at contents `x`, `w` and the output's at anything, runs to the
    continuation with the inputs' as they were and the output's at `outBlk x w` (the body also loads the output buffer
    before it stores; nothing reads that value). -/
theorem sound_kernel (c : Dev nD) (E : Set ℕ) (arg2 : Memref sig .tc .vmem S5000x128 .f32) (harg2 : arg2.IsWhole)
    (arg3 : Memref sig .tc .vmem S1x128x128 .f32) (harg3 : arg3.IsWhole) (arg4 : Memref sig .tc .vmem S1x5000x128 .f32) (harg4 : arg4.IsWhole)
    (i : grid0.Coords) (x : Vec F S5000x128 .f32) (w : Vec F S1x128x128 .f32) (K : PUnit → sProp 𝕄) :
    iprop(owns (c : Thread nD τ) arg2 fullShare x ∗ owns (c : Thread nD τ) arg3 fullShare w ∗ (∃ d, owns (c : Thread nD τ) arg4 fullShare d)
        ∗ (iprop(owns (c : Thread nD τ) arg2 fullShare x ∗ owns (c : Thread nD τ) arg3 fullShare w ∗ owns (c : Thread nD τ) arg4 fullShare (outBlk x w)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The pipeline's proof data on core `c`: the arrays as the region finds them; after the body at point `t` each input's
    buffer still at its block and the output's at the product of the two; the scoped rest and the generator register
    untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outBlk (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_o (c : Dev nD) (t : Fin cfg0.N) : (dat V c).after 2 t = outBlk (blk V c 0 t) (blk V c 1 t) := by dsimp only [dat]

theorem before_x (c : Dev nD) (t : Fin cfg0.N) (d) : (dat V c).before 0 t d = blk V c 0 t :=
  before_x_of V (dat V c) (A_eq V c 0) (after_x V c) t d
theorem before_w (c : Dev nD) (t : Fin cfg0.N) (d) : (dat V c).before 1 t d = blk V c 1 t :=
  before_w_of V (dat V c) (A_eq V c 1) (after_w V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so the body's run applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_o]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.KFin.lean ====
/-
  The finalize region (the second pallas_call): a grid of 10 points, point r reading rows 5000·r … 5000·r + 4999 of each
  of the three stacked 50000 × 128 aggregates (one 3 × 5000 × 128 block) and the 1 × 128 summed bias row, and writing
  max(a₀ + a₁ + a₂ + bias, 0) into rows 5000·r … of the 50000 × 128 result.
  Here: the blocks a point is handed, what the body leaves in the output's staging buffer as a function of the two input
  blocks, the body's run, and the pipeline's proof data with its obligation at every point.
  Stated for any float instance, at a parameter `V` for the buffer contents the region is entered with.
-/
import proofs.«426990_j39977555591181_1_alg».proof.Proof.Gen.Kernel.Launch
import proofs.«426990_j39977555591181_1_alg».proof.Proof.Gen.Kernel.Skeleton
import proofs.«426990_j39977555591181_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The stacked aggregates' staging buffer holds their block at every point. -/
theorem before_a_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The bias row's staging buffer holds the row at every point: fetched at the first, and its block index never moves. -/
theorem before_b_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Slab h (a 1 × 5000 × 128 rectangle at offset h on the stacking axis) of the 3 × 5000 × 128 block; the whole bias row;
    the whole 5000 × 128 output block. -/
abbrev rA0 : Rect S3x5000x128 := Rect.unit (s := S3x5000x128) ![0, 0, 0] S1x5000x128.size inb_S3x5000x128_S1x5000x128_0_0_0
abbrev rA1 : Rect S3x5000x128 := Rect.unit (s := S3x5000x128) ![1, 0, 0] S1x5000x128.size inb_S3x5000x128_S1x5000x128_1_0_0
abbrev rA2 : Rect S3x5000x128 := Rect.unit (s := S3x5000x128) ![2, 0, 0] S1x5000x128.size inb_S3x5000x128_S1x5000x128_2_0_0
abbrev rB : Rect S1x128 := Rect.unit (s := S1x128) ![0, 0] S1x128.size inb_S1x128_S1x128_0_0
abbrev rO : Rect S5000x128 := Rect.unit (s := S5000x128) ![0, 0] S5000x128.size inb_S5000x128_S5000x128_0_0

/-- The output's staging buffer after the body: its one store, over the whole buffer, of the three slabs' sum plus the
    bias row, clamped below at zero. -/
def outBlk (a : Vec F S3x5000x128 .f32) (b : Vec F S1x128 .f32) : Vec F S5000x128 .f32 :=
  View.canon [⟨rO, k1_pay1 (View.ld a rA0) (View.ld a rA1) (View.ld a rA2) (View.ld b rB)⟩]

/-- That store covers the buffer. -/
theorem cover_out (p : Vec F S5000x128 .f32) (y : S5000x128.Idx) :
    ∃ pc ∈ ([⟨rO, p⟩] : List (View.Piece (Elt F) S5000x128 .f32)), y ∈ pc.1.set :=
  View.cover_of_tiled [⟨rO, p⟩] S5000x128.size (by rfl) y

set_option maxHeartbeats 1000000 in
/-- The body on whole staging memrefs, the two inputs' at contents `a`, `b` and the output's at anything, runs to the
    continuation with the inputs' as they were and the output's at `outBlk a b` (the body also loads the output buffer
    before it stores; nothing reads that value). -/
theorem sound_kernel (c : Dev nD) (E : Set ℕ) (arg1 : Memref sig .tc .vmem S3x5000x128 .f32) (harg1 : arg1.IsWhole)
    (arg2 : Memref sig .tc .vmem S1x128 .f32) (harg2 : arg2.IsWhole) (arg3 : Memref sig .tc .vmem S5000x128 .f32) (harg3 : arg3.IsWhole)
    (i : grid1.Coords) (a : Vec F S3x5000x128 .f32) (b : Vec F S1x128 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b ∗ owns (c : Thread nD τ) arg3 fullShare (outBlk a b)) -∗ K ⟨⟩))
      ⊢ wp frame (wpE (defs₀ (F := F)) Variants.none c none) E (cc1__finalize_kernel i arg1 harg1 arg2 harg2 arg3 harg3) K := by
  simp only [cc1__finalize_kernel_eq_skeleton]; unfold cc1__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The pipeline's proof data on core `c`: the arrays as the region finds them; after the body at point `t` each input's
    buffer still at its block and the output's at `outBlk` of the two; the scoped rest and the generator register
    untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlk (blk V c 0 t) (blk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_a (c : Dev nD) (t : Fin cfg1.N) : (dat V c).after 0 t = blk V c 0 t := by dsimp only [dat]
theorem after_b (c : Dev nD) (t : Fin cfg1.N) : (dat V c).after 1 t = blk V c 1 t := by dsimp only [dat]
theorem after_o (c : Dev nD) (t : Fin cfg1.N) : (dat V c).after 2 t = outBlk (blk V c 0 t) (blk V c 1 t) := by dsimp only [dat]

theorem before_a (c : Dev nD) (t : Fin cfg1.N) (d) : (dat V c).before 0 t d = blk V c 0 t :=
  before_a_of V (dat V c) (A_eq V c 0) (after_a V c) t d
theorem before_b (c : Dev nD) (t : Fin cfg1.N) (d) : (dat V c).before 1 t d = blk V c 1 t :=
  before_b_of V (dat V c) (A_eq V c 1) (after_b V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks, so the body's run applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_a, before_b]
  rw [show (dat V c).Φ t.succ = (dat V c).Φ t.castSucc from rfl,
    show (dat V c).owesAt () t.succ = (dat V c).owesAt () t.castSucc from rfl,
    after_a, after_b, after_o]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Fin

end
-- ==== Proof.KRun.lean ====
/-
  The whole program: the projection region, the host operations between (per hop: take the source rows, scale by the edge
  weights, sum into the destination rows; then stack the three aggregates and sum the biases), the finalize region.
  Here: what each region leaves in the one buffer it writes, the proof data of both pipelines at their regions' entry
  contents, each region as a segment of @main between thread states "every unscoped buffer at the boundary's contents, the
  generator register at some state, nothing owed", and the launch: every weakly fair execution terminates and every
  unscoped buffer ends at the last boundary's contents. Stated for any float instance.
-/
import proofs.«426990_j39977555591181_1_alg».proof.Proof.KProj
import proofs.«426990_j39977555591181_1_alg».proof.Proof.KFin
import proofs.«426990_j39977555591181_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the two regions' boundaries -/

/-- What the projection region is entered with: the launch contents. -/
abbrev Vin0 : (c : Dev nD) → (b : Ref sig .tc) → Buf (Elt F) ((c : Thread nD τ).loc b) := fun c b => V0 m c b
/-- At its exit: its arrays at what the pipeline's write-backs leave, every other buffer as entered. -/
def exit0 (c : Dev nD) : Valuation τ sig (Elt F) :=
  Pipeline.withArrays spec0 c (V0 m c) fun w => (Proj.dat (Vin0 m) c).arrAt w cfg0.N
theorem exit0_arr (c : Dev nD) (w : Fin cfg0.W) :
    exit0 m c (Proc.devRef .tc (Pipeline.arrRef spec0 w)) = (Proj.dat (Vin0 m) c).arrAt w cfg0.N := by
  unfold exit0; exact Pipeline.withArrays_arr spec0 launch0.win.arr_inj c _ _ w
/-- The contents the regions leave, as far as the finalize region's entry needs them: the projection's. -/
def outsA : Outs (F := F) := fun _ r c => exit0 m c r
/-- What the finalize region is entered with: the host operations applied to that. -/
abbrev Vin1 : (c : Dev nD) → (b : Ref sig .tc) → Buf (Elt F) ((c : Thread nD τ).loc b) := fun c b => V8 m (outsA m) c b
/-- At its exit: its arrays at what the pipeline's write-backs leave, every other buffer as entered. -/
def exit1 (c : Dev nD) : Valuation τ sig (Elt F) :=
  Pipeline.withArrays spec1 c (V8 m (outsA m) c) fun w => (Fin.dat (Vin1 m) c).arrAt w cfg1.N
theorem exit1_arr (c : Dev nD) (w : Fin cfg1.W) :
    exit1 m c (Proc.devRef .tc (Pipeline.arrRef spec1 w)) = (Fin.dat (Vin1 m) c).arrAt w cfg1.N := by
  unfold exit1; exact Pipeline.withArrays_arr spec1 launch1.win.arr_inj c _ _ w
/-- The contents the regions leave: after the projection (item 0) its exit contents, after the finalize region (item 8) its own. -/
def outs : Outs (F := F) := fun J r c => if J = 9 then exit1 m c r else exit0 m c r
theorem outs_1 (r : Ref sig .tc) (c : Dev nD) : outs m 1 r c = exit0 m c r := if_neg (by decide)
theorem outs_9 (r : Ref sig .tc) (c : Dev nD) : outs m 9 r c = exit1 m c r := if_pos rfl
/-- Up to the finalize region's entry only the projection's output matters. -/
theorem V8_eq (c : Dev nD) : V8 m (outs m) c = V8 m (outsA m) c := rfl

abbrev Vout0 : (c : Dev nD) → (b : Ref sig .tc) → Buf (Elt F) ((c : Thread nD τ).loc b) := fun c b => V1 m (outs m) c b
abbrev Vout1 : (c : Dev nD) → (b : Ref sig .tc) → Buf (Elt F) ((c : Thread nD τ).loc b) := fun c b => V9 m (outs m) c b

/-- At the projection's exit each of its arrays holds what the pipeline leaves: the two inputs what they held, the output
    the write-backs' fold. -/
theorem hF0 (c : Dev nD) (w : Fin cfg0.W) : (Proj.dat (Vin0 m) c).arrAt w cfg0.N = Vout0 m c (Pipeline.arrRef spec0 w) := by
  match w with
  | ⟨0, _⟩ => exact ((Proj.dat (Vin0 m) c).arrAt_in 0 rfl _).trans ((Proj.A_eq (Vin0 m) c 0).trans (V1_of m (outs m) c main_arg0 (by decide)).symm)
  | ⟨1, _⟩ => exact ((Proj.dat (Vin0 m) c).arrAt_in 1 rfl _).trans ((Proj.A_eq (Vin0 m) c 1).trans (V1_of m (outs m) c main_arg1 (by decide)).symm)
  | ⟨2, _⟩ =>
    show _ = Function.update (V0 m c) (Proc.devRef .tc main_v0) (outs m 1 main_v0 c) (Proc.devRef .tc main_v0)
    rw [Function.update_self, outs_1]
    exact (exit0_arr m c 2).symm
/-- and every other buffer what it held at entry. -/
theorem hrest0 (c : Dev nD) : ∀ b, b ∉ Finset.univ.image (Pipeline.arrRef spec0) → Vout0 m c b = Vin0 m c b :=
  fun b hb => V1_of m (outs m) c b fun h => hb (Finset.mem_image.mpr ⟨2, Finset.mem_univ _, by rw [List.mem_singleton.mp h]⟩)

/-- The same at the finalize region's exit. -/
theorem hF1 (c : Dev nD) (w : Fin cfg1.W) : (Fin.dat (Vin1 m) c).arrAt w cfg1.N = Vout1 m c (Pipeline.arrRef spec1 w) := by
  match w with
  | ⟨0, _⟩ => exact ((Fin.dat (Vin1 m) c).arrAt_in 0 rfl _).trans ((Fin.A_eq (Vin1 m) c 0).trans (V9_of m (outs m) c main_v53 (by decide)).symm)
  | ⟨1, _⟩ => exact ((Fin.dat (Vin1 m) c).arrAt_in 1 rfl _).trans ((Fin.A_eq (Vin1 m) c 1).trans (V9_of m (outs m) c main_v55 (by decide)).symm)
  | ⟨2, _⟩ =>
    show _ = Function.update (V8 m (outs m) c) (Proc.devRef .tc main_v56) (outs m 9 main_v56 c) (Proc.devRef .tc main_v56)
    rw [Function.update_self, outs_9]
    exact (exit1_arr m c 2).symm
theorem hrest1 (c : Dev nD) : ∀ b, b ∉ Finset.univ.image (Pipeline.arrRef spec1) → Vout1 m c b = Vin1 m c b :=
  fun b hb => V9_of m (outs m) c b fun h => hb (Finset.mem_image.mpr ⟨2, Finset.mem_univ _, by rw [List.mem_singleton.mp h]⟩)

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => Proj.dat (Vin0 m) c
  | ⟨1, _⟩ => fun c => Fin.dat (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)

/-! ## The regions as segments -/

set_option backward.isDefEq.respectTransparency.types false in
/-- THE PROJECTION REGION over the thread state: entered from every unscoped buffer at the launch contents, left with the projection's output written. Its arrays are split out of the unscoped buffers on entry and put back at the exit contents; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (Vin0 m) c).loose
  hwaits := Pipeline.hwaits_of_owed_zero _ _ _ _ L lv 0 fun _ _ => rfl
  pre c := iprop(StableHlo.held (c : Thread nD τ) (Pipeline.ucRefs τ sig) (V0 m c) ∗ Rst c)
  post c := iprop(StableHlo.held (c : Thread nD τ) (Pipeline.ucRefs τ sig) (V1 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE FINALIZE REGION over the thread state: entered from what the host operations left, left with the result written. Its arrays are split out of the unscoped buffers on entry and put back at the exit contents; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Fin.body_obligation (Vin1 m) c).loose
  hwaits := Pipeline.hwaits_of_owed_zero _ _ _ _ L lv 1 fun _ _ => rfl
  pre c := iprop(StableHlo.held (c : Thread nD τ) (Pipeline.ucRefs τ sig) (V8 m (outs m) c) ∗ Rst c)
  post c := iprop(StableHlo.held (c : Thread nD τ) (Pipeline.ucRefs τ sig) (V9 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    rw [V8_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The finalize region leaves the last thread state: the buffers and the generator register, beside the core owing nothing. -/
theorem post_last (c : Dev nD) :
    iprop(StableHlo.held (c : Thread nD τ) (Pipeline.ucRefs τ sig) (V9 m (outs m) c) ∗ Rst c)
      ⊢ (iprop((StableHlo.held (c : Thread nD τ) (Pipeline.ucRefs τ sig) (V9 m (outs m) c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The launch -/

set_option backward.isDefEq.respectTransparency.types false in
/-- From any memory with zero counters, every weakly fair execution of @main terminates, nothing faulting, and in every final
    state each unscoped buffer holds the last boundary's contents: the arguments what they were launched with, the result
    what the finalize region's write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V9 m (outs m) c b) := by
  refine Pipeline.θ_run_regions_kit_dev (pcfgs (F := F)) adm (pdats m) () cellOf_inj emb₁ defs₀ 𝒱₀ L lv m ρ main
    (segs m (outs m) 𝒱₀ L lv (fun _ => Rst) () (pdats m) (reg0 m) (reg1 m))
    (fun c Q => by
      rewrite [main_chain c, Seg.run_eq_chain,
        show (segs m (outs m) 𝒱₀ L lv (fun _ => Rst) () (pdats m) (reg0 m) (reg1 m) c).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => iprop(StableHlo.held (c : Thread nD τ) (Pipeline.ucRefs τ sig) (V9 m (outs m) c) ∗ ∃ r, prngReg c r))
    (hch := fun c => ⟨.rfl, .rfl, .rfl, .rfl, .rfl, .rfl, .rfl, .rfl, .rfl, post_last m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V9 m (outs m) c) s')
      isplitl [Hh] <;> iassumption)
    (hQ := fun s h c => h c)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates, nothing faulting, with every argument array as launched — no host
    operation writes an argument and no region may change one, so the last boundary's contents at an argument walk back to
    the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (V9_main_arg0 m (outs m) c),
      (h c _ (mem_uc main_arg1 (by decide))).trans (V9_main_arg1 m (outs m) c),
      (h c _ (mem_uc main_arg2 (by decide))).trans (V9_main_arg2 m (outs m) c),
      (h c _ (mem_uc main_arg3 (by decide))).trans (V9_main_arg3 m (outs m) c),
      (h c _ (mem_uc main_arg4 (by decide))).trans (V9_main_arg4 m (outs m) c)⟩)
    (run_all m ρ)

end Cert.Kernel.Whole

end
-- ==== Proof.KIProj.lean ====
/-
  The projection region (the first pallas_call): a grid of 10 × 3 points, point (r, h) reading rows
  5000·r … 5000·r + 4999 of the node features (a 5000 × 128 block) and the h-th 128 × 128 weight matrix,
  and writing their matrix product into rows 5000·r … of slab h of the 3 × 50000 × 128 result.
  Here: the blocks a point is handed, what the body leaves in the output's staging buffer as a function of
  the two input blocks, the body's run, and the pipeline's proof data with its obligation at every point.
  Stated for any float instance, at a parameter `V` for the buffer contents the region is entered with.
-/
import proofs.«426990_j39977555591181_1_alg».proof.Proof.Gen.KernelIdeal.Launch
import proofs.«426990_j39977555591181_1_alg».proof.Proof.Gen.KernelIdeal.Skeleton
import proofs.«426990_j39977555591181_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds their block at every point, whether the point fetched it or the block index
    stood still (the row block changes only with the first grid coordinate). -/
theorem before_x_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Likewise the weight matrix's staging buffer (its block changes only with the second grid coordinate). -/
theorem before_w_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole 5000 × 128 block of feature rows, the whole 1 × 128 × 128 weight block, the whole 1 × 5000 × 128 output block. -/
abbrev rX : Rect S5000x128 := Rect.unit (s := S5000x128) ![0, 0] S5000x128.size inb_S5000x128_S5000x128_0_0
abbrev rW : Rect S1x128x128 := Rect.unit (s := S1x128x128) ![0, 0, 0] S1x128x128.size inb_S1x128x128_S1x128x128_0_0_0
abbrev rO : Rect S1x5000x128 := Rect.unit (s := S1x5000x128) ![0, 0, 0] S1x5000x128.size inb_S1x5000x128_S1x5000x128_0_0_0

/-- The output's staging buffer after the body: its one store, of the product of the two loaded blocks, over the whole buffer. -/
def outBlk (x : Vec F S5000x128 .f32) (w : Vec F S1x128x128 .f32) : Vec F S1x5000x128 .f32 :=
  View.canon [⟨rO, k0_pay1 (View.ld x rX) (View.ld w rW)⟩]

/-- That store covers the buffer. -/
theorem cover_out (p : Vec F S1x5000x128 .f32) (y : S1x5000x128.Idx) :
    ∃ pc ∈ ([⟨rO, p⟩] : List (View.Piece (Elt F) S1x5000x128 .f32)), y ∈ pc.1.set :=
  View.cover_of_tiled [⟨rO, p⟩] S1x5000x128.size (by rfl) y

set_option maxHeartbeats 1000000 in
/-- The body on whole staging memrefs, the two inputs' at contents `x`, `w` and the output's at anything, runs to the
    continuation with the inputs' as they were and the output's at `outBlk x w` (the body also loads the output buffer
    before it stores; nothing reads that value). -/
theorem sound_kernel (c : Dev nD) (E : Set ℕ) (arg2 : Memref sig .tc .vmem S5000x128 .f32) (harg2 : arg2.IsWhole)
    (arg3 : Memref sig .tc .vmem S1x128x128 .f32) (harg3 : arg3.IsWhole) (arg4 : Memref sig .tc .vmem S1x5000x128 .f32) (harg4 : arg4.IsWhole)
    (i : grid0.Coords) (x : Vec F S5000x128 .f32) (w : Vec F S1x128x128 .f32) (K : PUnit → sProp 𝕄) :
    iprop(owns (c : Thread nD τ) arg2 fullShare x ∗ owns (c : Thread nD τ) arg3 fullShare w ∗ (∃ d, owns (c : Thread nD τ) arg4 fullShare d)
        ∗ (iprop(owns (c : Thread nD τ) arg2 fullShare x ∗ owns (c : Thread nD τ) arg3 fullShare w ∗ owns (c : Thread nD τ) arg4 fullShare (outBlk x w)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The pipeline's proof data on core `c`: the arrays as the region finds them; after the body at point `t` each input's
    buffer still at its block and the output's at the product of the two; the scoped rest and the generator register
    untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outBlk (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_o (c : Dev nD) (t : Fin cfg0.N) : (dat V c).after 2 t = outBlk (blk V c 0 t) (blk V c 1 t) := by dsimp only [dat]

theorem before_x (c : Dev nD) (t : Fin cfg0.N) (d) : (dat V c).before 0 t d = blk V c 0 t :=
  before_x_of V (dat V c) (A_eq V c 0) (after_x V c) t d
theorem before_w (c : Dev nD) (t : Fin cfg0.N) (d) : (dat V c).before 1 t d = blk V c 1 t :=
  before_w_of V (dat V c) (A_eq V c 1) (after_w V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so the body's run applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_x, after_w, after_o]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.KIFin.lean ====
/-
  The finalize region (the second pallas_call): a grid of 10 points, point r reading rows 5000·r … 5000·r + 4999 of each
  of the three stacked 50000 × 128 aggregates (one 3 × 5000 × 128 block) and the 1 × 128 summed bias row, and writing
  max(a₀ + a₁ + a₂ + bias, 0) into rows 5000·r … of the 50000 × 128 result.
  Here: the blocks a point is handed, what the body leaves in the output's staging buffer as a function of the two input
  blocks, the body's run, and the pipeline's proof data with its obligation at every point.
  Stated for any float instance, at a parameter `V` for the buffer contents the region is entered with.
-/
import proofs.«426990_j39977555591181_1_alg».proof.Proof.Gen.KernelIdeal.Launch
import proofs.«426990_j39977555591181_1_alg».proof.Proof.Gen.KernelIdeal.Skeleton
import proofs.«426990_j39977555591181_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The stacked aggregates' staging buffer holds their block at every point. -/
theorem before_a_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The bias row's staging buffer holds the row at every point: fetched at the first, and its block index never moves. -/
theorem before_b_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Slab h (a 1 × 5000 × 128 rectangle at offset h on the stacking axis) of the 3 × 5000 × 128 block; the whole bias row;
    the whole 5000 × 128 output block. -/
abbrev rA0 : Rect S3x5000x128 := Rect.unit (s := S3x5000x128) ![0, 0, 0] S1x5000x128.size inb_S3x5000x128_S1x5000x128_0_0_0
abbrev rA1 : Rect S3x5000x128 := Rect.unit (s := S3x5000x128) ![1, 0, 0] S1x5000x128.size inb_S3x5000x128_S1x5000x128_1_0_0
abbrev rA2 : Rect S3x5000x128 := Rect.unit (s := S3x5000x128) ![2, 0, 0] S1x5000x128.size inb_S3x5000x128_S1x5000x128_2_0_0
abbrev rB : Rect S1x128 := Rect.unit (s := S1x128) ![0, 0] S1x128.size inb_S1x128_S1x128_0_0
abbrev rO : Rect S5000x128 := Rect.unit (s := S5000x128) ![0, 0] S5000x128.size inb_S5000x128_S5000x128_0_0

/-- The output's staging buffer after the body: its one store, over the whole buffer, of the three slabs' sum plus the
    bias row, clamped below at zero. -/
def outBlk (a : Vec F S3x5000x128 .f32) (b : Vec F S1x128 .f32) : Vec F S5000x128 .f32 :=
  View.canon [⟨rO, k1_pay1 (View.ld a rA0) (View.ld a rA1) (View.ld a rA2) (View.ld b rB)⟩]

/-- That store covers the buffer. -/
theorem cover_out (p : Vec F S5000x128 .f32) (y : S5000x128.Idx) :
    ∃ pc ∈ ([⟨rO, p⟩] : List (View.Piece (Elt F) S5000x128 .f32)), y ∈ pc.1.set :=
  View.cover_of_tiled [⟨rO, p⟩] S5000x128.size (by rfl) y

set_option maxHeartbeats 1000000 in
/-- The body on whole staging memrefs, the two inputs' at contents `a`, `b` and the output's at anything, runs to the
    continuation with the inputs' as they were and the output's at `outBlk a b` (the body also loads the output buffer
    before it stores; nothing reads that value). -/
theorem sound_kernel (c : Dev nD) (E : Set ℕ) (arg1 : Memref sig .tc .vmem S3x5000x128 .f32) (harg1 : arg1.IsWhole)
    (arg2 : Memref sig .tc .vmem S1x128 .f32) (harg2 : arg2.IsWhole) (arg3 : Memref sig .tc .vmem S5000x128 .f32) (harg3 : arg3.IsWhole)
    (i : grid1.Coords) (a : Vec F S3x5000x128 .f32) (b : Vec F S1x128 .f32) (K : PUnit → sProp 𝕄) :
    iprop(owns (c : Thread nD τ) arg1 fullShare a ∗ owns (c : Thread nD τ) arg2 fullShare b ∗ (∃ d, owns (c : Thread nD τ) arg3 fullShare d)
        ∗ (iprop(owns (c : Thread nD τ) arg1 fullShare a ∗ owns (c : Thread nD τ) arg2 fullShare b ∗ owns (c : Thread nD τ) arg3 fullShare (outBlk a b)) -∗ K ⟨⟩))
      ⊢ wp frame (wpE (defs₀ (F := F)) Variants.none c none) E (cc1__finalize_kernel i arg1 harg1 arg2 harg2 arg3 harg3) K := by
  simp only [cc1__finalize_kernel_eq_skeleton]; unfold cc1__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The pipeline's proof data on core `c`: the arrays as the region finds them; after the body at point `t` each input's
    buffer still at its block and the output's at `outBlk` of the two; the scoped rest and the generator register
    untouched; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlk (blk V c 0 t) (blk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_a (c : Dev nD) (t : Fin cfg1.N) : (dat V c).after 0 t = blk V c 0 t := by dsimp only [dat]
theorem after_b (c : Dev nD) (t : Fin cfg1.N) : (dat V c).after 1 t = blk V c 1 t := by dsimp only [dat]
theorem after_o (c : Dev nD) (t : Fin cfg1.N) : (dat V c).after 2 t = outBlk (blk V c 0 t) (blk V c 1 t) := by dsimp only [dat]

theorem before_a (c : Dev nD) (t : Fin cfg1.N) (d) : (dat V c).before 0 t d = blk V c 0 t :=
  before_a_of V (dat V c) (A_eq V c 0) (after_a V c) t d
theorem before_b (c : Dev nD) (t : Fin cfg1.N) (d) : (dat V c).before 1 t d = blk V c 1 t :=
  before_b_of V (dat V c) (A_eq V c 1) (after_b V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks, so the body's run applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_a, before_b]
  rw [show (dat V c).Φ t.succ = (dat V c).Φ t.castSucc from rfl,
    show (dat V c).owesAt () t.succ = (dat V c).owesAt () t.castSucc from rfl,
    after_a, after_b, after_o]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Fin

end
-- ==== Proof.KIRun.lean ====
/-
  The whole program: the projection region, the host operations between (per hop: take the source rows, scale by the edge
  weights, sum into the destination rows; then stack the three aggregates and sum the biases), the finalize region.
  Here: what each region leaves in the one buffer it writes, the proof data of both pipelines at their regions' entry
  contents, each region as a segment of @main between thread states "every unscoped buffer at the boundary's contents, the
  generator register at some state, nothing owed", and the launch: every weakly fair execution terminates and every
  unscoped buffer ends at the last boundary's contents. Stated for any float instance.
-/
import proofs.«426990_j39977555591181_1_alg».proof.Proof.KIProj
import proofs.«426990_j39977555591181_1_alg».proof.Proof.KIFin
import proofs.«426990_j39977555591181_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the two regions' boundaries -/

/-- What the projection region is entered with: the launch contents. -/
abbrev Vin0 : (c : Dev nD) → (b : Ref sig .tc) → Buf (Elt F) ((c : Thread nD τ).loc b) := fun c b => V0 m c b
/-- At its exit: its arrays at what the pipeline's write-backs leave, every other buffer as entered. -/
def exit0 (c : Dev nD) : Valuation τ sig (Elt F) :=
  Pipeline.withArrays spec0 c (V0 m c) fun w => (Proj.dat (Vin0 m) c).arrAt w cfg0.N
theorem exit0_arr (c : Dev nD) (w : Fin cfg0.W) :
    exit0 m c (Proc.devRef .tc (Pipeline.arrRef spec0 w)) = (Proj.dat (Vin0 m) c).arrAt w cfg0.N := by
  unfold exit0; exact Pipeline.withArrays_arr spec0 launch0.win.arr_inj c _ _ w
/-- The contents the regions leave, as far as the finalize region's entry needs them: the projection's. -/
def outsA : Outs (F := F) := fun _ r c => exit0 m c r
/-- What the finalize region is entered with: the host operations applied to that. -/
abbrev Vin1 : (c : Dev nD) → (b : Ref sig .tc) → Buf (Elt F) ((c : Thread nD τ).loc b) := fun c b => V8 m (outsA m) c b
/-- At its exit: its arrays at what the pipeline's write-backs leave, every other buffer as entered. -/
def exit1 (c : Dev nD) : Valuation τ sig (Elt F) :=
  Pipeline.withArrays spec1 c (V8 m (outsA m) c) fun w => (Fin.dat (Vin1 m) c).arrAt w cfg1.N
theorem exit1_arr (c : Dev nD) (w : Fin cfg1.W) :
    exit1 m c (Proc.devRef .tc (Pipeline.arrRef spec1 w)) = (Fin.dat (Vin1 m) c).arrAt w cfg1.N := by
  unfold exit1; exact Pipeline.withArrays_arr spec1 launch1.win.arr_inj c _ _ w
/-- The contents the regions leave: after the projection (item 0) its exit contents, after the finalize region (item 8) its own. -/
def outs : Outs (F := F) := fun J r c => if J = 9 then exit1 m c r else exit0 m c r
theorem outs_1 (r : Ref sig .tc) (c : Dev nD) : outs m 1 r c = exit0 m c r := if_neg (by decide)
theorem outs_9 (r : Ref sig .tc) (c : Dev nD) : outs m 9 r c = exit1 m c r := if_pos rfl
/-- Up to the finalize region's entry only the projection's output matters. -/
theorem V8_eq (c : Dev nD) : V8 m (outs m) c = V8 m (outsA m) c := rfl

abbrev Vout0 : (c : Dev nD) → (b : Ref sig .tc) → Buf (Elt F) ((c : Thread nD τ).loc b) := fun c b => V1 m (outs m) c b
abbrev Vout1 : (c : Dev nD) → (b : Ref sig .tc) → Buf (Elt F) ((c : Thread nD τ).loc b) := fun c b => V9 m (outs m) c b

/-- At the projection's exit each of its arrays holds what the pipeline leaves: the two inputs what they held, the output
    the write-backs' fold. -/
theorem hF0 (c : Dev nD) (w : Fin cfg0.W) : (Proj.dat (Vin0 m) c).arrAt w cfg0.N = Vout0 m c (Pipeline.arrRef spec0 w) := by
  match w with
  | ⟨0, _⟩ => exact ((Proj.dat (Vin0 m) c).arrAt_in 0 rfl _).trans ((Proj.A_eq (Vin0 m) c 0).trans (V1_of m (outs m) c main_arg0 (by decide)).symm)
  | ⟨1, _⟩ => exact ((Proj.dat (Vin0 m) c).arrAt_in 1 rfl _).trans ((Proj.A_eq (Vin0 m) c 1).trans (V1_of m (outs m) c main_arg1 (by decide)).symm)
  | ⟨2, _⟩ =>
    show _ = Function.update (V0 m c) (Proc.devRef .tc main_v0) (outs m 1 main_v0 c) (Proc.devRef .tc main_v0)
    rw [Function.update_self, outs_1]
    exact (exit0_arr m c 2).symm
/-- and every other buffer what it held at entry. -/
theorem hrest0 (c : Dev nD) : ∀ b, b ∉ Finset.univ.image (Pipeline.arrRef spec0) → Vout0 m c b = Vin0 m c b :=
  fun b hb => V1_of m (outs m) c b fun h => hb (Finset.mem_image.mpr ⟨2, Finset.mem_univ _, by rw [List.mem_singleton.mp h]⟩)

/-- The same at the finalize region's exit. -/
theorem hF1 (c : Dev nD) (w : Fin cfg1.W) : (Fin.dat (Vin1 m) c).arrAt w cfg1.N = Vout1 m c (Pipeline.arrRef spec1 w) := by
  match w with
  | ⟨0, _⟩ => exact ((Fin.dat (Vin1 m) c).arrAt_in 0 rfl _).trans ((Fin.A_eq (Vin1 m) c 0).trans (V9_of m (outs m) c main_v53 (by decide)).symm)
  | ⟨1, _⟩ => exact ((Fin.dat (Vin1 m) c).arrAt_in 1 rfl _).trans ((Fin.A_eq (Vin1 m) c 1).trans (V9_of m (outs m) c main_v55 (by decide)).symm)
  | ⟨2, _⟩ =>
    show _ = Function.update (V8 m (outs m) c) (Proc.devRef .tc main_v56) (outs m 9 main_v56 c) (Proc.devRef .tc main_v56)
    rw [Function.update_self, outs_9]
    exact (exit1_arr m c 2).symm
theorem hrest1 (c : Dev nD) : ∀ b, b ∉ Finset.univ.image (Pipeline.arrRef spec1) → Vout1 m c b = Vin1 m c b :=
  fun b hb => V9_of m (outs m) c b fun h => hb (Finset.mem_image.mpr ⟨2, Finset.mem_univ _, by rw [List.mem_singleton.mp h]⟩)

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => Proj.dat (Vin0 m) c
  | ⟨1, _⟩ => fun c => Fin.dat (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)

/-! ## The regions as segments -/

set_option backward.isDefEq.respectTransparency.types false in
/-- THE PROJECTION REGION over the thread state: entered from every unscoped buffer at the launch contents, left with the projection's output written. Its arrays are split out of the unscoped buffers on entry and put back at the exit contents; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (Vin0 m) c).loose
  hwaits := Pipeline.hwaits_of_owed_zero _ _ _ _ L lv 0 fun _ _ => rfl
  pre c := iprop(StableHlo.held (c : Thread nD τ) (Pipeline.ucRefs τ sig) (V0 m c) ∗ Rst c)
  post c := iprop(StableHlo.held (c : Thread nD τ) (Pipeline.ucRefs τ sig) (V1 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE FINALIZE REGION over the thread state: entered from what the host operations left, left with the result written. Its arrays are split out of the unscoped buffers on entry and put back at the exit contents; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Fin.body_obligation (Vin1 m) c).loose
  hwaits := Pipeline.hwaits_of_owed_zero _ _ _ _ L lv 1 fun _ _ => rfl
  pre c := iprop(StableHlo.held (c : Thread nD τ) (Pipeline.ucRefs τ sig) (V8 m (outs m) c) ∗ Rst c)
  post c := iprop(StableHlo.held (c : Thread nD τ) (Pipeline.ucRefs τ sig) (V9 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    rw [V8_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The finalize region leaves the last thread state: the buffers and the generator register, beside the core owing nothing. -/
theorem post_last (c : Dev nD) :
    iprop(StableHlo.held (c : Thread nD τ) (Pipeline.ucRefs τ sig) (V9 m (outs m) c) ∗ Rst c)
      ⊢ (iprop((StableHlo.held (c : Thread nD τ) (Pipeline.ucRefs τ sig) (V9 m (outs m) c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The launch -/

set_option backward.isDefEq.respectTransparency.types false in
/-- From any memory with zero counters, every weakly fair execution of @main terminates, nothing faulting, and in every final
    state each unscoped buffer holds the last boundary's contents: the arguments what they were launched with, the result
    what the finalize region's write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V9 m (outs m) c b) := by
  refine Pipeline.θ_run_regions_kit_dev (pcfgs (F := F)) adm (pdats m) () cellOf_inj emb₁ defs₀ 𝒱₀ L lv m ρ main
    (segs m (outs m) 𝒱₀ L lv (fun _ => Rst) () (pdats m) (reg0 m) (reg1 m))
    (fun c Q => by
      rewrite [main_chain c, Seg.run_eq_chain,
        show (segs m (outs m) 𝒱₀ L lv (fun _ => Rst) () (pdats m) (reg0 m) (reg1 m) c).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => iprop(StableHlo.held (c : Thread nD τ) (Pipeline.ucRefs τ sig) (V9 m (outs m) c) ∗ ∃ r, prngReg c r))
    (hch := fun c => ⟨.rfl, .rfl, .rfl, .rfl, .rfl, .rfl, .rfl, .rfl, .rfl, post_last m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V9 m (outs m) c) s')
      isplitl [Hh] <;> iassumption)
    (hQ := fun s h c => h c)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates, nothing faulting, with every argument array as launched — no host
    operation writes an argument and no region may change one, so the last boundary's contents at an argument walk back to
    the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (V9_main_arg0 m (outs m) c),
      (h c _ (mem_uc main_arg1 (by decide))).trans (V9_main_arg1 m (outs m) c),
      (h c _ (mem_uc main_arg2 (by decide))).trans (V9_main_arg2 m (outs m) c),
      (h c _ (mem_uc main_arg3 (by decide))).trans (V9_main_arg3 m (outs m) c),
      (h c _ (mem_uc main_arg4 (by decide))).trans (V9_main_arg4 m (outs m) c)⟩)
    (run_all m ρ)

end Cert.KernelIdeal.Whole

end
-- ==== Proof.KIHost.lean ====
/-
  The host operations between the two pallas_calls, as functions of the projection's output H (3 × 50000 × 128), the edge
  weights (3 × 800000) and the edge list (3 × 2 × 800000): for hop h, take the rows of slab h of H at the hop's (wrapped)
  source indices — rows whose index is out of range are filled with the not-a-number pattern —, scale each by its edge's
  weight, and sum the scaled rows into their destination rows of a zero 50000 × 128 array; then stack the three
  aggregates. Beside them the three bias rows are summed into one.
  Here: those functions named, and each buffer the finalize region reads identified with them, at any float instance.
-/
import proofs.«426990_j39977555591181_1_alg».proof.Proof.Gen.KernelIdeal.Regions
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]

/-! ## The pieces -/

/-- The source half of the edge list, a row of 800000 words per hop; -/
def srcs (e : IVec S3x2x800000 32) : IVec S3x800000 32 :=
  shapeCast S3x800000 (extractStridedSlice S3x1x800000 ![0, 0, 0] e slices_S3x2x800000_S3x1x800000_0_0_0) shapeCasts_S3x1x800000_S3x800000
/-- the destination half. -/
def dsts (e : IVec S3x2x800000 32) : IVec S3x800000 32 :=
  shapeCast S3x800000 (extractStridedSlice S3x1x800000 ![0, 1, 0] e slices_S3x2x800000_S3x1x800000_0_1_0) shapeCasts_S3x1x800000_S3x800000

/-- Row h of a 3 × 800000 array (of words or of floats). -/
def row0 {α : Type} (a : S3x800000.Idx → α) : S800000.Idx → α :=
  shapeCast S800000 (extractStridedSlice S1x800000 ![0, 0] a slices_S3x800000_S1x800000_0_0) shapeCasts_S1x800000_S800000
def row1 {α : Type} (a : S3x800000.Idx → α) : S800000.Idx → α :=
  shapeCast S800000 (extractStridedSlice S1x800000 ![1, 0] a slices_S3x800000_S1x800000_1_0) shapeCasts_S1x800000_S800000
def row2 {α : Type} (a : S3x800000.Idx → α) : S800000.Idx → α :=
  shapeCast S800000 (extractStridedSlice S1x800000 ![2, 0] a slices_S3x800000_S1x800000_2_0) shapeCasts_S1x800000_S800000

/-- Slab h of the projection's 3 × 50000 × 128 output. -/
def slab0 (H : FVec F S3x50000x128 .f32) : FVec F S50000x128 .f32 :=
  shapeCast S50000x128 (extractStridedSlice S1x50000x128 ![0, 0, 0] H slices_S3x50000x128_S1x50000x128_0_0_0) shapeCasts_S1x50000x128_S50000x128
def slab1 (H : FVec F S3x50000x128 .f32) : FVec F S50000x128 .f32 :=
  shapeCast S50000x128 (extractStridedSlice S1x50000x128 ![1, 0, 0] H slices_S3x50000x128_S1x50000x128_1_0_0) shapeCasts_S1x50000x128_S50000x128
def slab2 (H : FVec F S3x50000x128 .f32) : FVec F S50000x128 .f32 :=
  shapeCast S50000x128 (extractStridedSlice S1x50000x128 ![2, 0, 0] H slices_S3x50000x128_S1x50000x128_2_0_0) shapeCasts_S1x50000x128_S50000x128

/-- A hop's source indices with the negative ones wrapped by the number of rows (s < 0 ↦ s + 50000), as a column. -/
def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Per edge, whether the wrapped index is a row: 0 ≤ i ∧ i ≤ 49999. -/
def inRows (col : IVec S800000x1 32) : IVec S800000 1 :=
  Host.reduce IntOp.andi
    (andi (cmpi .sge col (broadcastInDim S800000x1 ![] bcast_S_S800000x1 (constantI S_ 32 0#32)))
      (cmpi .sle col (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The rows of `h` at the wrapped indices, an out-of-range index's row filled with the not-a-number pattern. -/
def takeRows (h : FVec F S50000x128 .f32) (s : IVec S800000 32) : FVec F S800000x128 .f32 :=
  select (broadcastInDim S800000x128 ![0] bcast_S800000_S800000x128_0 (inRows (wrapCol s)))
    (Host.gather gather_S50000x128_S800000x1_S800000x128_1_0_n_n_0_1_1128 h (wrapCol s))
    (broadcastInDim S800000x128 ![] bcast_S_S800000x128 (constant S_ .f32 0x7FC00000#32))

/-- The taken rows scaled by their edges' weights and summed into their destination rows of a zero array. -/
def aggr (t : FVec F S800000x128 .f32) (w : FVec F S800000 .f32) (d : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (mulf t (broadcastInDim S800000x128 ![0, 1] bcast_S800000x1_S800000x128_0_1 (broadcastInDim S800000x1 ![0] bcast_S800000_S800000x1_0 w)))

/-- Hop h's aggregate. -/
def hop0 (H : FVec F S3x50000x128 .f32) (w : FVec F S3x800000 .f32) (e : IVec S3x2x800000 32) : FVec F S50000x128 .f32 :=
  aggr (takeRows (slab0 H) (row0 (srcs e))) (row0 w) (row0 (dsts e))
def hop1 (H : FVec F S3x50000x128 .f32) (w : FVec F S3x800000 .f32) (e : IVec S3x2x800000 32) : FVec F S50000x128 .f32 :=
  aggr (takeRows (slab1 H) (row1 (srcs e))) (row1 w) (row1 (dsts e))
def hop2 (H : FVec F S3x50000x128 .f32) (w : FVec F S3x800000 .f32) (e : IVec S3x2x800000 32) : FVec F S50000x128 .f32 :=
  aggr (takeRows (slab2 H) (row2 (srcs e))) (row2 w) (row2 (dsts e))

/-- Three 50000 × 128 arrays stacked into one 3 × 50000 × 128 array. -/
def stack (a0 a1 a2 : FVec F S50000x128 .f32) : FVec F S3x50000x128 .f32 :=
  concatenate S3x50000x128 0
    [⟨S1x50000x128, broadcastInDim S1x50000x128 ![1, 2] bcast_S50000x128_S1x50000x128_1_2 a0⟩,
     ⟨S1x50000x128, broadcastInDim S1x50000x128 ![1, 2] bcast_S50000x128_S1x50000x128_1_2 a1⟩,
     ⟨S1x50000x128, broadcastInDim S1x50000x128 ![1, 2] bcast_S50000x128_S1x50000x128_1_2 a2⟩]
    concatenates_S1x50000x128_S1x50000x128_S1x50000x128_S3x50000x128_d0

/-- The three bias rows summed, from zero, as a 1 × 128 row. -/
def biasRow (b : FVec F S3x128 .f32) : FVec F S1x128 .f32 :=
  shapeCast S1x128 (Host.reduceAdd b (constant S_ .f32 0x00000000#32) reducesTo_S3x128_S128_d0 h_S_) shapeCasts_S128_S1x128

/-! ## The buffers -/

/-- After the first `n` + 1 host stretches. -/
abbrev upTo0 (W : Valuation τ sig (Elt F)) : Valuation τ sig (Elt F) := StableHlo.after hostOps1 W
abbrev upTo1 (W : Valuation τ sig (Elt F)) : Valuation τ sig (Elt F) := StableHlo.after hostOps1_1 (upTo0 W)
abbrev upTo2 (W : Valuation τ sig (Elt F)) : Valuation τ sig (Elt F) := StableHlo.after hostOps1_2 (upTo1 W)
abbrev upTo3 (W : Valuation τ sig (Elt F)) : Valuation τ sig (Elt F) := StableHlo.after hostOps1_3 (upTo2 W)
abbrev upTo4 (W : Valuation τ sig (Elt F)) : Valuation τ sig (Elt F) := StableHlo.after hostOps1_4 (upTo3 W)
abbrev upTo5 (W : Valuation τ sig (Elt F)) : Valuation τ sig (Elt F) := StableHlo.after hostOps1_5 (upTo4 W)
abbrev upTo6 (W : Valuation τ sig (Elt F)) : Valuation τ sig (Elt F) := StableHlo.after hostOps1_6 (upTo5 W)

set_option maxHeartbeats 4000000 in
/-- The first hop's aggregate, once computed, -/
theorem agg0_eq (W : Valuation τ sig (Elt F)) :
    upTo6 W (Proc.devRef .tc main_v19) = hop0 (W (Proc.devRef .tc main_v0)) (W (Proc.devRef .tc main_arg3)) (W (Proc.devRef .tc main_arg4)) := by
  after_results_simp
  simp only [TRef.toBuf, TRef.ofBuf, cast_eq]
  rfl

set_option maxHeartbeats 4000000 in
/-- the second's, -/
theorem agg1_eq (W : Valuation τ sig (Elt F)) :
    upTo6 W (Proc.devRef .tc main_v34) = hop1 (W (Proc.devRef .tc main_v0)) (W (Proc.devRef .tc main_arg3)) (W (Proc.devRef .tc main_arg4)) := by
  after_results_simp
  simp only [TRef.toBuf, TRef.ofBuf, cast_eq]
  rfl

set_option maxHeartbeats 4000000 in
/-- the third's. -/
theorem agg2_eq (W : Valuation τ sig (Elt F)) :
    upTo6 W (Proc.devRef .tc main_v49) = hop2 (W (Proc.devRef .tc main_v0)) (W (Proc.devRef .tc main_arg3)) (W (Proc.devRef .tc main_arg4)) := by
  after_results_simp
  simp only [TRef.toBuf, TRef.ofBuf, cast_eq]
  rfl

set_option maxHeartbeats 4000000 in
/-- The summed bias row. -/
theorem bias_eq (W : Valuation τ sig (Elt F)) :
    upTo6 W (Proc.devRef .tc main_v55) = biasRow (W (Proc.devRef .tc main_arg2)) := by
  after_results_simp
  rfl

end Cert.KernelIdeal.Glue

end
-- ==== Proof.Spec.lean ====
/-
  The two pallas_calls' results as whole-array functions over the extended reals.
  The projection: slab h of the 3 × 50000 × 128 result is the matrix product of the 50000 × 128 node features with the h-th
  128 × 128 weight matrix. The finalize call: each entry of the 50000 × 128 result is the sum of the three stacked aggregates'
  entries there and the summed bias of its column, clamped below at zero.
-/
import proofs.«426990_j39977555591181_1_alg».proof.KernelIdeal
import Idealize.ShloMosaic.PureOps.Ideal
import Idealize.ShloMosaic.Lib.ValueIdx

noncomputable section

namespace Cert.Spec

open Cert.KernelIdeal Idealize.ShloMosaic Idealize.ShloMosaic.ValueIdx

/-- (x · W_h) at row r, column u: the sum over the 128 features k of x[r, k] · W[h, k, u]. -/
def proj (x : FVec Ideal S50000x128 .f32) (w : FVec Ideal S3x128x128 .f32) : FVec Ideal S3x50000x128 .f32 :=
  fun j => ∑ k : Fin 128, x (ix2 (j 1) k) * w (ix3 (j 0) k (j 2))

/-- max(a[0, r, u] + a[1, r, u] + a[2, r, u] + b[0, u], 0). -/
def fin (a : FVec Ideal S3x50000x128 .f32) (b : FVec Ideal S1x128 .f32) : FVec Ideal S50000x128 .f32 :=
  fun j => max (a (ix3 (0 : Fin 3) (j 0) (j 1)) + a (ix3 (1 : Fin 3) (j 0) (j 1)) + a (ix3 (2 : Fin 3) (j 0) (j 1)) + b (ix2 (0 : Fin 1) (j 1))) 0

end Cert.Spec

end
-- ==== Proof.KIProjValue.lean ====
/-
  The projection region's output array after its 30 grid points, over the extended reals: point (r, h) writes the product of
  feature rows 5000·r … 5000·r + 4999 with weight matrix h into those rows of slab h, the 30 blocks tile the 3 × 50000 × 128
  array, so the array is the three matrix products (a format change into the matrix unit is the identity on extended reals,
  and the product into a zero accumulator is the plain sum over the 128 features).
-/
import proofs.«426990_j39977555591181_1_alg».proof.Proof.KIProj
import proofs.«426990_j39977555591181_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The block product at an entry -/

/-- The offsets of a whole-buffer rectangle are all zero (rank 2, rank 3). -/
theorem zero_off2 : (![0, 0] : Fin 2 → Nat) = fun _ => 0 := funext fun a => by fin_cases a <;> rfl
theorem zero_off3 : (![0, 0, 0] : Fin 3 → Nat) = fun _ => 0 := funext fun a => by fin_cases a <;> rfl

/-- The product's left operand is read at (row of the output entry, contraction index), -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- and its right operand at (contraction index, column of the output entry). -/
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Over the extended reals the matrix unit's product into a zero accumulator, at entry (r, u), is the sum over the 128
    contraction indices k of a[r, k] · b[k, u]. -/
theorem matmul_at (a : FVec Ideal S5000x128 .bf16) (b : FVec Ideal S128x128 .bf16) (r : Fin 5000) (u : Fin 128) :
    matmul dot_S5000x128_S128x128_S5000x128_1_0_0_1_n_n none a b (constant (F := Ideal) S5000x128 .f32 0x00000000#32) (ix2 r u)
      = ∑ k : Fin 128, a (ix2 r k) * b (ix2 k u) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r u) ((contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 r u) ((contrEquiv1 dot_S5000x128_S128x128_S5000x128_1_0_0_1_n_n 128 rfl rfl).symm k) = ix2 k u := funext fun a => Fin.ext (by
    match a with
    | ⟨0, _⟩ => exact (rhs_contr _ _).trans hk
    | ⟨1, _⟩ => exact rhs_col _ _)
  rw [el, er]

/-- What the body stores, at entry (z, r, u) of the 1 × 5000 × 128 block: the leading unit axis added after the product and
    dropped from the weight block before it only rename entries, and narrowing the operands' format is the identity on
    extended reals, so the entry is the sum over k of x[r, k] · w[z, k, u]. -/
theorem pay_at (x : FVec Ideal S5000x128 .f32) (w : FVec Ideal S1x128x128 .f32) (z : Fin 1) (r : Fin 5000) (u : Fin 128) :
    k0_pay1 (F := Ideal) x w (ix3 z r u) = ∑ k : Fin 128, x (ix2 r k) * w (ix3 z k u) := by
  unfold k0_pay1
  refine (shapeCast_addUnit_apply ![5000, 128] _ _ (ix3 z r u)).trans ?_
  have e : (fun a : Fin 2 => ix3 z r u a.succ) = ix2 r u := funext fun a => by
    match a with
    | ⟨0, _⟩ => rfl
    | ⟨1, _⟩ => rfl
  refine (congrArg _ e).trans ?_
  refine (matmul_at _ _ r u).trans ?_
  refine Finset.sum_congr rfl fun k _ => ?_
  show x (ix2 r k) * shapeCast S128x128 w shapeCasts_S1x128x128_S128x128 (ix2 k u) = _
  refine congrArg (x (ix2 r k) * ·) ?_
  refine (shapeCast_dropUnit_apply ![128, 128] w _ (ix2 k u)).trans ?_
  refine congrArg w (funext fun a => Fin.ext ?_)
  match a with
  | ⟨0, _⟩ => show 0 = z.val; omega
  | ⟨1, _⟩ => rfl
  | ⟨2, _⟩ => rfl

/-! ## From the 30 blocks to the array -/

/-- One block's product is the whole-array product restricted to it: if the feature block's row `y 1` is the array's row
    `i 1` and the weight block's one matrix is the array's matrix `i 0`, read at column `y 2 = i 2`, then entry `y` of what the
    body stores is entry `i` of the three matrix products. -/
theorem pay_eq_proj (X : FVec Ideal S50000x128 .f32) (W : FVec Ideal S3x128x128 .f32)
    (x : FVec Ideal S5000x128 .f32) (w : FVec Ideal S1x128x128 .f32) (y : S1x5000x128.Idx) (i : S3x50000x128.Idx)
    (hx : ∀ k : Fin 128, x (ix2 (y 1) k) = X (ix2 (i 1) k))
    (hw : ∀ k : Fin 128, w (ix3 (y 0) k (y 2)) = W (ix3 (i 0) k (i 2))) :
    k0_pay1 (F := Ideal) x w y = Cert.Spec.proj X W i := by
  obtain ⟨z, r, u, rfl⟩ : ∃ (z : Fin 1) (r : Fin 5000) (u : Fin 128), y = ix3 z r u := ⟨y 0, y 1, y 2, eq_ix3 y⟩
  refine (pay_at x w z r u).trans ?_
  unfold Cert.Spec.proj
  exact Finset.sum_congr rfl fun k _ => congrArg₂ (· * ·) (hx k) (hw k)

/-- The three index maps over the grid: the feature block's row-block index is the output block's, the weight block's matrix
    index is the output block's slab index, every other block index is zero, and the output's stay in range. -/
theorem index_relations : ∀ t : Fin cfg0.N,
    win0_0.index t (0 : Fin 2) = win0_2.index t (1 : Fin 3) ∧ win0_0.index t (1 : Fin 2) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 2 ∧ win0_2.index t (1 : Fin 3) ≤ 9 :=
  (by decide +kernel : ∀ t : Fin grid0.N, _)

/-- Every (slab, row block) pair is some point's output block. -/
theorem index_onto : ∀ (h : Fin 3) (q : Fin 10), ∃ t : Fin cfg0.N, win0_2.index t = ![h.val, q.val, 0] :=
  (by decide +kernel : ∀ (h : Fin 3) (q : Fin 10), ∃ t : Fin grid0.N, win0_2.index t = ![h.val, q.val, 0])

-- the core's buffer contents when the region is entered, over the extended reals
variable (V : (c : Dev nD) → (b : Ref sig .tc) → Buf (Elt Ideal) ((c : Thread nD τ).loc b))

/-- What point `t` writes back is its block of the three matrix products of the arrays as the region finds them. -/
theorem flushed_eq (c : Dev nD) (t : Fin cfg0.N) :
    (Proj.dat (F := Ideal) V c).flushed 2 t
      = ((cfg0.win 2).blk t).view.read (Elt Ideal) (Cert.Spec.proj (V c main_arg0) (V c main_arg1)) := by
  show (cfg0.win 2).cut (grid0.coords t) ((Proj.dat (F := Ideal) V c).after 2 t) = _
  rw [Proj.after_o]
  unfold Proj.outBlk
  rw [View.canon_unit_zero zero_off3]
  simp only [View.ld_unit_zero (S := S5000x128) zero_off2, View.ld_unit_zero (S := S1x128x128) zero_off3]
  obtain ⟨e0, e1, e2, e3, e4, e5, e6, e7⟩ := index_relations t
  funext y
  show k0_pay1 (F := Ideal) (Proj.blk V c 0 t) (Proj.blk V c 1 t) y
    = Cert.Spec.proj (V c main_arg0) (V c main_arg1) (((cfg0.win 2).blk t).view.emb y)
  refine pay_eq_proj (V c main_arg0) (V c main_arg1) (Proj.blk V c 0 t) (Proj.blk V c 1 t) y (((cfg0.win 2).blk t).view.emb y) (fun k => ?_) (fun k => ?_)
  · show V c main_arg0 (((cfg0.win 0).blk t).view.emb (ix2 (y 1) k)) = V c main_arg0 (ix2 ((((cfg0.win 2).blk t).view.emb y) 1) k)
    refine congrArg (V c main_arg0) (funext fun a => Fin.ext ?_)
    match a with
    | ⟨0, _⟩ => show win0_0.index t (0 : Fin 2) * 5000 + 1 * (y 1).val = win0_2.index t (1 : Fin 3) * 5000 + 1 * (y 1).val; omega
    | ⟨1, _⟩ => show win0_0.index t (1 : Fin 2) * 128 + 1 * k.val = k.val; omega
  · show V c main_arg1 (((cfg0.win 1).blk t).view.emb (ix3 (y 0) k (y 2))) = V c main_arg1 (ix3 ((((cfg0.win 2).blk t).view.emb y) 0) k ((((cfg0.win 2).blk t).view.emb y) 2))
    refine congrArg (V c main_arg1) (funext fun a => Fin.ext ?_)
    match a with
    | ⟨0, _⟩ => show win0_1.index t (0 : Fin 3) * 1 + 1 * (y 0).val = win0_2.index t (0 : Fin 3) * 1 + 1 * (y 0).val; omega
    | ⟨1, _⟩ => show win0_1.index t (1 : Fin 3) * 128 + 1 * k.val = k.val; omega
    | ⟨2, _⟩ => show win0_1.index t (2 : Fin 3) * 128 + 1 * (y 2).val = win0_2.index t (2 : Fin 3) * 128 + 1 * (y 2).val; omega

/-- An entry of the array lies in point `t`'s output block iff each coordinate lies in the block's range on its axis. -/
theorem mem_out_block (t : Fin cfg0.N) (i : S3x50000x128.Idx) :
    i ∈ ((cfg0.win 2).blk t).view.set ↔ ∀ a : Fin 3, win0_2.index t a * S1x5000x128.size a ≤ (i a).val ∧ (i a).val < win0_2.index t a * S1x5000x128.size a + S1x5000x128.size a := by
  show i ∈ ((View.whole main_v0).slice (win0_2.rect t)).set ↔ _
  rw [View.set_slice_whole, Rect.mem_set_unit]
  exact Iff.rfl

/-- The 30 output blocks tile the array: entry (h, r, u) lies in the block of the point with slab index h and row-block
    index r / 5000. -/
theorem covered (i : S3x50000x128.Idx) :
    ∃ t : Fin cfg0.N, (cfg0.win 2).flush t = true ∧ i ∈ ((cfg0.win 2).blk t).view.set := by
  have hi0 : (i 0).val < 3 := (i 0).isLt
  have hi1 : (i 1).val < 50000 := (i 1).isLt
  have hi2 : (i 2).val < 128 := (i 2).isLt
  obtain ⟨t, ht⟩ := index_onto ⟨(i 0).val, hi0⟩ ⟨(i 1).val / 5000, by omega⟩
  have q0 : win0_2.index t (0 : Fin 3) = (i 0).val := congrFun ht 0
  have q1 : win0_2.index t (1 : Fin 3) = (i 1).val / 5000 := congrFun ht 1
  have q2 : win0_2.index t (2 : Fin 3) = 0 := congrFun ht 2
  refine ⟨t, flush0_2 t, ?_⟩
  rw [mem_out_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 5000 ≤ (i 1).val ∧ (i 1).val < win0_2.index t (1 : Fin 3) * 5000 + 5000; omega
  | ⟨2, _⟩ => show win0_2.index t (2 : Fin 3) * 128 ≤ (i 2).val ∧ (i 2).val < win0_2.index t (2 : Fin 3) * 128 + 128; omega

/-- After all 30 points the projection's output array is `x · W_h`, slab by slab. -/
theorem final (c : Dev nD) :
    (Proj.dat (F := Ideal) V c).arrAt 2 cfg0.N = Cert.Spec.proj (V c main_arg0) (V c main_arg1) :=
  (Proj.dat (F := Ideal) V c).arrAt_eq_of_cover 2 (Cert.Spec.proj (V c main_arg0) (V c main_arg1))
    (fun t _ => flushed_eq V c t) covered

end Cert.KernelIdeal.ProjValue

end
-- ==== Proof.KIFinValue.lean ====
/-
  The finalize region's output array after its 10 grid points, over the extended reals: point r writes, into rows
  5000·r … 5000·r + 4999, the three stacked aggregates' rows summed, plus the bias row, clamped below at zero; the 10
  blocks tile the 50000 × 128 array, so the array is that function of the whole stacked array and the bias row.
-/
import proofs.«426990_j39977555591181_1_alg».proof.Proof.KIFin
import proofs.«426990_j39977555591181_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FinValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the core's buffer contents when the region is entered, over the extended reals
variable (V : (c : Dev nD) → (b : Ref sig .tc) → Buf (Elt Ideal) ((c : Thread nD τ).loc b))

/-- The body's arithmetic at row p, column q of the 5000 × 128 block: the three slabs' entries there summed, plus the
    bias row's entry of that column, clamped below at zero. -/
theorem pay_apply (a0 a1 a2 : Vec Ideal S1x5000x128 .f32) (b : Vec Ideal S1x128 .f32) (p : Fin 5000) (q : Fin 128) :
    k1_pay1 a0 a1 a2 b (ix2 p q)
      = max (a0 (ix3 (0 : Fin 1) p q) + a1 (ix3 (0 : Fin 1) p q) + a2 (ix3 (0 : Fin 1) p q) + b (ix2 (0 : Fin 1) q)) 0 := by
  unfold k1_pay1
  rw [maximumf_apply, broadcast_apply, addf_apply, addf_apply, addf_apply]
  rw [shapeCast_1ab_ab_apply, shapeCast_1ab_ab_apply, shapeCast_1ab_ab_apply, broadcastTo_1b_ab_apply, shapeCast_self]
  exact congrArg (max _) Ideal.ofBits_zero_f32

/-- Slab h of the 3 × 5000 × 128 block, loaded as a 1 × 5000 × 128 vector, reads the block at (h, p, q). -/
theorem ld_slab0 (a : Vec Ideal S3x5000x128 .f32) (p : Fin 5000) (q : Fin 128) :
    View.ld a Fin.rA0 (ix3 (0 : Fin 1) p q) = a (ix3 (0 : Fin 3) p q) :=
  congrArg a (funext fun ax => Fin.ext (by
    match ax with
    | ⟨0, _⟩ => rfl
    | ⟨1, _⟩ => show 0 + 1 * p.val = p.val; omega
    | ⟨2, _⟩ => show 0 + 1 * q.val = q.val; omega))

theorem ld_slab1 (a : Vec Ideal S3x5000x128 .f32) (p : Fin 5000) (q : Fin 128) :
    View.ld a Fin.rA1 (ix3 (0 : Fin 1) p q) = a (ix3 (1 : Fin 3) p q) :=
  congrArg a (funext fun ax => Fin.ext (by
    match ax with
    | ⟨0, _⟩ => rfl
    | ⟨1, _⟩ => show 0 + 1 * p.val = p.val; omega
    | ⟨2, _⟩ => show 0 + 1 * q.val = q.val; omega))

theorem ld_slab2 (a : Vec Ideal S3x5000x128 .f32) (p : Fin 5000) (q : Fin 128) :
    View.ld a Fin.rA2 (ix3 (0 : Fin 1) p q) = a (ix3 (2 : Fin 3) p q) :=
  congrArg a (funext fun ax => Fin.ext (by
    match ax with
    | ⟨0, _⟩ => rfl
    | ⟨1, _⟩ => show 0 + 1 * p.val = p.val; omega
    | ⟨2, _⟩ => show 0 + 1 * q.val = q.val; omega))

/-- One entry of what a point leaves in the output's staging buffer: when the point's 3 × 5000 × 128 block reads the
    stacked array A at row (i 0) of every slab, column (i 1), and its bias block reads the bias row B at column (i 1),
    the entry at (p, q) is the whole-array function of A and B at i. -/
theorem point_eq (A : FVec Ideal S3x50000x128 .f32) (B : FVec Ideal S1x128 .f32)
    (a : Vec Ideal S3x5000x128 .f32) (b : Vec Ideal S1x128 .f32) (p : Fin 5000) (q : Fin 128) (i : S50000x128.Idx)
    (ha : ∀ h : Fin 3, a (ix3 h p q) = A (ix3 h (i 0) (i 1)))
    (hb : b (ix2 (0 : Fin 1) q) = B (ix2 (0 : Fin 1) (i 1))) :
    k1_pay1 (View.ld a Fin.rA0) (View.ld a Fin.rA1) (View.ld a Fin.rA2) b (ix2 p q) = Cert.Spec.fin A B i := by
  rw [pay_apply, ld_slab0, ld_slab1, ld_slab2, ha 0, ha 1, ha 2, hb]
  rfl

theorem hz2 : (![0, 0] : Fin 2 → Nat) = fun _ => 0 := funext fun a => by fin_cases a <;> rfl

/-- The index maps over the 10 points: point t takes block (0, t, 0) of the stacked array, block (0, 0) of the bias row,
    and writes block (t, 0) of the result. -/
theorem idx_facts : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array function of the stacked array and the bias row. -/
theorem flushed_eq (c : Dev nD) (t : Fin cfg1.N) :
    (Fin.dat (F := Ideal) V c).flushed 2 t
      = ((cfg1.win 2).blk t).view.read (Elt Ideal) (Cert.Spec.fin (V c main_v53) (V c main_v55)) := by
  show (cfg1.win 2).cut (grid1.coords t) ((Fin.dat (F := Ideal) V c).after 2 t) = _
  rw [Fin.after_o]
  unfold Fin.outBlk
  rw [View.canon_unit_zero hz2]
  simp only [View.ld_unit_zero (S := S1x128) hz2]
  obtain ⟨e0, e1, e2, e3, e4, e5, e6⟩ := idx_facts t
  funext j
  obtain ⟨p, q, rfl⟩ : ∃ (p : Fin 5000) (q : Fin 128), j = ix2 p q := ⟨j 0, j 1, eq_ix2 j⟩
  show k1_pay1 (View.ld (Fin.blk V c 0 t) Fin.rA0) (View.ld (Fin.blk V c 0 t) Fin.rA1)
        (View.ld (Fin.blk V c 0 t) Fin.rA2) (Fin.blk V c 1 t) (ix2 p q)
      = Cert.Spec.fin (V c main_v53) (V c main_v55) (((cfg1.win 2).blk t).view.emb (ix2 p q))
  refine point_eq (V c main_v53) (V c main_v55) (Fin.blk V c 0 t) (Fin.blk V c 1 t) p q
    (((cfg1.win 2).blk t).view.emb (ix2 p q)) (fun h => ?_) ?_
  · show V c main_v53 (((cfg1.win 0).blk t).view.emb (ix3 h p q))
        = V c main_v53 (ix3 h ((((cfg1.win 2).blk t).view.emb (ix2 p q)) 0) ((((cfg1.win 2).blk t).view.emb (ix2 p q)) 1))
    refine congrArg (V c main_v53) (funext fun ax => Fin.ext ?_)
    match ax with
    | ⟨0, _⟩ => show win1_0.index t (0 : Fin 3) * 3 + 1 * h.val = h.val; omega
    | ⟨1, _⟩ => show win1_0.index t (1 : Fin 3) * 5000 + 1 * p.val = win1_2.index t (0 : Fin 2) * 5000 + 1 * p.val; omega
    | ⟨2, _⟩ => show win1_0.index t (2 : Fin 3) * 128 + 1 * q.val = win1_2.index t (1 : Fin 2) * 128 + 1 * q.val; omega
  · show V c main_v55 (((cfg1.win 1).blk t).view.emb (ix2 (0 : Fin 1) q))
        = V c main_v55 (ix2 (0 : Fin 1) ((((cfg1.win 2).blk t).view.emb (ix2 p q)) 1))
    refine congrArg (V c main_v55) (funext fun ax => Fin.ext ?_)
    match ax with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega

/-- An index of the array is in point t's block iff each coordinate is in the block's range on its axis. -/
theorem mem_blk (t : Fin cfg1.N) (i : S50000x128.Idx) :
    i ∈ ((cfg1.win 2).blk t).view.set
      ↔ ∀ a : Fin 2, win1_2.index t a * S5000x128.size a ≤ (i a).val
          ∧ (i a).val < win1_2.index t a * S5000x128.size a + S5000x128.size a := by
  show i ∈ ((View.whole main_v56).slice (win1_2.rect t)).set ↔ _
  rw [View.set_slice_whole, Rect.mem_set_unit]
  exact Iff.rfl

/-- The 10 blocks tile the array: row r lies in the block of point r / 5000, and every point writes its block back. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show (i 0).val / 5000 < 10; omega⟩, rfl⟩
  obtain ⟨e0, e1, e2, e3, e4, e5, e6⟩ := idx_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- After all 10 points the finalize region's output array is max(a₀ + a₁ + a₂ + bias, 0), entry by entry. -/
theorem final (c : Dev nD) :
    (Fin.dat (F := Ideal) V c).arrAt 2 cfg1.N = Cert.Spec.fin (V c main_v53) (V c main_v55) :=
  (Fin.dat (F := Ideal) V c).arrAt_eq_of_cover 2 (Cert.Spec.fin (V c main_v53) (V c main_v55))
    (fun t _ => flushed_eq V c t) (fun i => cover i)

end Cert.KernelIdeal.FinValue

end
-- ==== Proof.KIResult.lean ====
/-
  The idealized kernel program's result as one function of its argument arrays, over the extended reals:
  with H = x · W (slab by slab) the projection's output, A_h the hop-h aggregate of H's slab h taken at the hop's sources,
  scaled by the hop's edge weights and summed into the hop's destinations, and β the three bias rows summed,
      result[r, u] = max(A₀[r, u] + A₁[r, u] + A₂[r, u] + β[u], 0).
  Read off the run of the whole program: the finalize region's final array is that function of the two buffers it reads,
  those are the host operations' results on the projection's final array, and that is the matrix products.
-/
import proofs.«426990_j39977555591181_1_alg».proof.Proof.KIRun
import proofs.«426990_j39977555591181_1_alg».proof.Proof.KIHost
import proofs.«426990_j39977555591181_1_alg».proof.Proof.KIProjValue
import proofs.«426990_j39977555591181_1_alg».proof.Proof.KIFinValue

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo

set_option maxHeartbeats 2000000 in
/-- The three aggregates, once all are computed, are what the stacked array holds, slab by slab: the last host stretch
    stacks the buffers the earlier stretches and its own scatter-add wrote, and writes none of them again. -/
theorem stack_eq {F : FTy → Type} [FloatOps F] (W : Valuation τ sig (Elt F)) :
    Glue.upTo6 W (Proc.devRef .tc main_v53)
      = Glue.stack (Glue.upTo6 W (Proc.devRef .tc main_v19)) (Glue.upTo6 W (Proc.devRef .tc main_v34)) (Glue.upTo6 W (Proc.devRef .tc main_v49)) := by
  show StableHlo.after hostOps1_6 (Glue.upTo5 W) (Proc.devRef .tc main_v53)
    = Glue.stack (StableHlo.after hostOps1_6 (Glue.upTo5 W) (Proc.devRef .tc main_v19)) (StableHlo.after hostOps1_6 (Glue.upTo5 W) (Proc.devRef .tc main_v34))
        (StableHlo.after hostOps1_6 (Glue.upTo5 W) (Proc.devRef .tc main_v49))
  generalize Glue.upTo5 W = W7
  rfl

variable (m : (ℓ : Loc nD τ sig) → Buf (Elt Ideal) ℓ)

/-- The projection's output H = x · W, as the whole program's arguments give it. -/
abbrev H (c : Dev nD) : FVec Ideal S3x50000x128 .f32 :=
  Cert.Spec.proj (m ((c.tc : Thread nD τ).loc main_arg0)) (m ((c.tc : Thread nD τ).loc main_arg1))

/-- The result as a function of the arguments. -/
def out (c : Dev nD) : FVec Ideal S50000x128 .f32 :=
  Cert.Spec.fin
    (Glue.stack
      (Glue.hop0 (H m c) (m ((c.tc : Thread nD τ).loc main_arg3)) (m ((c.tc : Thread nD τ).loc main_arg4)))
      (Glue.hop1 (H m c) (m ((c.tc : Thread nD τ).loc main_arg3)) (m ((c.tc : Thread nD τ).loc main_arg4)))
      (Glue.hop2 (H m c) (m ((c.tc : Thread nD τ).loc main_arg3)) (m ((c.tc : Thread nD τ).loc main_arg4))))
    (Glue.biasRow (m ((c.tc : Thread nD τ).loc main_arg2)))

/-- What the host operations start from: the launch contents with the projection's output written. -/
abbrev W1 (c : Dev nD) : Valuation τ sig (Elt Ideal) := V1 m (Whole.outsA m) c

/-- The projection's output buffer holds the matrix products; -/
theorem W1_v0 (c : Dev nD) : W1 m c (Proc.devRef .tc main_v0) = H m c := by
  show Function.update (V0 m c) (Proc.devRef .tc main_v0) (Whole.outsA m 1 main_v0 c) (Proc.devRef .tc main_v0) = _
  rw [Function.update_self]
  show Whole.exit0 m c (Proc.devRef .tc (Pipeline.arrRef spec0 2)) = _
  rw [Whole.exit0_arr, ProjValue.final]
/-- the arguments the host operations read hold their launch contents. -/
theorem W1_arg2 (c : Dev nD) : W1 m c (Proc.devRef .tc main_arg2) = m ((c.tc : Thread nD τ).loc main_arg2) := V1_of m (Whole.outsA m) c main_arg2 (by decide)
theorem W1_arg3 (c : Dev nD) : W1 m c (Proc.devRef .tc main_arg3) = m ((c.tc : Thread nD τ).loc main_arg3) := V1_of m (Whole.outsA m) c main_arg3 (by decide)
theorem W1_arg4 (c : Dev nD) : W1 m c (Proc.devRef .tc main_arg4) = m ((c.tc : Thread nD τ).loc main_arg4) := V1_of m (Whole.outsA m) c main_arg4 (by decide)

/-- The finalize region's final array is the result. -/
theorem final_eq (c : Dev nD) : (Fin.dat (F := Ideal) (Whole.Vin1 m) c).arrAt 2 cfg1.N = out m c := by
  rw [FinValue.final]
  show Cert.Spec.fin (Glue.upTo6 (W1 m c) (Proc.devRef .tc main_v53)) (Glue.upTo6 (W1 m c) (Proc.devRef .tc main_v55)) = _
  rw [stack_eq, Glue.agg0_eq, Glue.agg1_eq, Glue.agg2_eq, Glue.bias_eq, W1_v0, W1_arg2, W1_arg3, W1_arg4]
  rfl

/-- THE RUN WITH ITS VALUE: every weakly fair execution of the idealized kernel program terminates with the result buffer
    at `out` of the launch contents and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v56) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (Whole.mem_uc main_v56 (by decide))).trans (by
        show Function.update (V8 m (Whole.outs m) c) (Proc.devRef .tc main_v56) (Whole.outs m 9 main_v56 c) (Proc.devRef .tc main_v56) = _
        rw [Function.update_self, Whole.outs_9]
        show Whole.exit1 m c (Proc.devRef .tc (Pipeline.arrRef spec1 2)) = _
        rw [Whole.exit1_arr, final_eq]),
      (h c _ (Whole.mem_uc main_arg0 (by decide))).trans (V9_main_arg0 m (Whole.outs m) c),
      (h c _ (Whole.mem_uc main_arg1 (by decide))).trans (V9_main_arg1 m (Whole.outs m) c),
      (h c _ (Whole.mem_uc main_arg2 (by decide))).trans (V9_main_arg2 m (Whole.outs m) c),
      (h c _ (Whole.mem_uc main_arg3 (by decide))).trans (V9_main_arg3 m (Whole.outs m) c),
      (h c _ (Whole.mem_uc main_arg4 (by decide))).trans (V9_main_arg4 m (Whole.outs m) c)⟩)
    (Whole.run_all (F := Ideal) m ρ)

end Cert.KernelIdeal.Result

end
-- ==== Proof.KIRange.lean ====
/-
  The added precondition read back: every source index of the edge list is a row index of the 50000-row table it indexes,
  counted from the start or (negative) from the end — as a signed word, −50000 ≤ s < 50000. For such an index the wrapped
  index (s + 50000 when s < 0) lies in 0 … 49999, so the in-range test the row-take makes holds at every edge, no row is
  replaced by the fill value, and the take is the plain gather at the wrapped indices.
-/
import proofs.«426990_j39977555591181_1_alg».proof.Defs
import proofs.«426990_j39977555591181_1_alg».proof.Proof.KIHost
import proofs.«426990_j39977555591181_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

set_option maxRecDepth 16384

noncomputable section

namespace Cert.KernelIdeal.Range

open Cert.KernelIdeal Cert.KernelIdeal.Gen
open Idealize.ShloMosaic Idealize.ShloMosaic.TcCoe Idealize.ShloMosaic.ValueIdx Idealize.SL.Sem

/-- A word that is a row index of a 50000-row table, counted from the start or from the end. -/
def InRange (s : BitVec 32) : Prop := (-50000 : Int) ≤ s.toInt ∧ s.toInt < 50000

/-! ## Words -/

open Idealize.ShloMosaic.StableHlo.Predicate (ofBool_eq_one_iff)

/-- The four constants the compares meet, read as signed integers. -/
theorem toInt_lit0 : (0#32 : BitVec 32).toInt = 0 := by decide
theorem toInt_lit49999 : (49999#32 : BitVec 32).toInt = 49999 := by decide
theorem toInt_lit50000 : (50000#32 : BitVec 32).toInt = 50000 := by decide
theorem toInt_litNeg : (4294917296#32 : BitVec 32).toInt = -50000 := by decide

/-- The precondition's two signed compares on a word say that it is in range. -/
theorem inRange_of_cmp (w : BitVec 32) (h1 : IntOp.cmpi .sge w 4294917296#32 = 1#1) (h2 : IntOp.cmpi .slt w 50000#32 = 1#1) :
    InRange w := by
  unfold IntOp.cmpi at h1 h2
  rw [ofBool_eq_one_iff] at h1 h2
  simp only [BitVec.slt, BitVec.sle, decide_eq_true_eq, toInt_litNeg, toInt_lit50000] at h1 h2
  exact ⟨h1, h2⟩

/-- A word in 0 … 49999 passes the row test: 0 ≤ w and w ≤ 49999, signed. -/
theorem rowTest_of_bounds (w : BitVec 32) (h0 : 0 ≤ w.toInt) (h1 : w.toInt ≤ 49999) :
    IntOp.andi (IntOp.cmpi .sge w 0#32) (IntOp.cmpi .sle w 49999#32) = 1#1 := by
  rw [IntOp.andi_eq_one]
  unfold IntOp.cmpi
  simp only [ofBool_eq_one_iff, BitVec.sle, decide_eq_true_eq, toInt_lit0, toInt_lit49999]
  exact ⟨h0, h1⟩

/-- THE SCALAR FACT. For b in range the wrapped word (b + 50000 when b < 0, else b) lies in 0 … 49999: a negative b is at
    least −50000, so b + 50000 is in 0 … 49999 and the 32-bit sum does not wrap; a non-negative b is below 50000 already.
    Either way both compares of the row test give 1. -/
theorem wrap_rowTest (b : BitVec 32) (hb : InRange b) :
    IntOp.andi (IntOp.cmpi .sge (Scalar.select (IntOp.cmpi .slt b 0#32) (IntOp.addi b 50000#32) b) 0#32)
      (IntOp.cmpi .sle (Scalar.select (IntOp.cmpi .slt b 0#32) (IntOp.addi b 50000#32) b) 49999#32) = 1#1 := by
  obtain ⟨h1, h2⟩ := hb
  by_cases hneg : b.toInt < 0
  · have hc : IntOp.cmpi .slt b 0#32 = 1#1 := by
      unfold IntOp.cmpi
      simp only [ofBool_eq_one_iff, BitVec.slt, decide_eq_true_eq, toInt_lit0]
      exact hneg
    have hadd : (IntOp.addi b 50000#32).toInt = b.toInt + 50000 := by
      show (b + 50000#32).toInt = _
      rw [BitVec.toInt_add, toInt_lit50000]
      exact Int.bmod_eq_of_le_mul_two (by omega) (by omega)
    rw [hc, select_one]
    exact rowTest_of_bounds _ (by omega) (by omega)
  · have hc : IntOp.cmpi .slt b 0#32 = 0#1 := by
      apply eq_zero_of_ne_one
      unfold IntOp.cmpi
      simp only [ofBool_eq_one_iff, BitVec.slt, decide_eq_true_eq, toInt_lit0]
      exact hneg
    rw [hc, select_zero]
    exact rowTest_of_bounds _ (by omega) (by omega)

/-! ## A reduction by `and` of all ones -/

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduce by `and`, from 1, of an array of ones is 1 at every result index, whatever the axes. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x hx _

/-! ## The precondition read back -/

/-- The scalar shape has one index. -/
instance : Subsingleton Cert.Pre_finite_inputs.S_.Idx := ⟨fun a b => funext fun d => d.elim0⟩

/-- Under the precondition every source index, of every hop and edge, is such a word: the last conjunct of the printed
    predicate is the reduce-and, over all of the 3 × 800000 source half of the edge list, of (s ≥ −50000) ∧ (s < 50000). -/
theorem srcs_inRange (m : (ℓ : Loc nD τ sig) → Buf (Elt Ideal) ℓ) (hpre : Cert.Pre_KernelIdeal m) (c : Dev nD) (j : S3x800000.Idx) :
    InRange (Glue.srcs (m ((c.tc : Thread nD τ).loc main_arg4)) j) := by
  have e := congrFun (hpre c) ix0
  dsimp only [Cert.Pre_finite_inputs.fn, Cert.Pre_finite_inputs.fn_part1, andi] at e
  have e2 := (IntOp.andi_eq_one.1 e).2
  have e3 := Host.reduce_andi_all _ _ _ _ _ e2 j
  obtain ⟨ha, hb⟩ := IntOp.andi_eq_one.1 e3
  exact inRange_of_cmp _ ha hb

/-! ## Rows -/

/-- A row of an array of such words is a vector of such words: a row's entry is an entry of the array. -/
theorem row0_inRange (a : IVec S3x800000 32) (h : ∀ j, InRange (a j)) (e : S800000.Idx) : InRange (Glue.row0 a e) := by
  unfold Glue.row0 shapeCast extractStridedSlice
  exact h _
theorem row1_inRange (a : IVec S3x800000 32) (h : ∀ j, InRange (a j)) (e : S800000.Idx) : InRange (Glue.row1 a e) := by
  unfold Glue.row1 shapeCast extractStridedSlice
  exact h _
theorem row2_inRange (a : IVec S3x800000 32) (h : ∀ j, InRange (a j)) (e : S800000.Idx) : InRange (Glue.row2 a e) := by
  unfold Glue.row2 shapeCast extractStridedSlice
  exact h _

/-! ## The row-take -/

/-- An entry of the wrapped column is the wrap of an entry of the index vector. -/
theorem wrapCol_apply (s : IVec S800000 32) (p : S800000x1.Idx) :
    ∃ k, Glue.wrapCol s p = Scalar.select (IntOp.cmpi .slt (s k) 0#32) (IntOp.addi (s k) 50000#32) (s k) :=
  ⟨_, rfl⟩

/-- At indices in range the row test holds at every edge. -/
theorem inRows_wrapCol (s : IVec S800000 32) (hs : ∀ e, InRange (s e)) (k : S800000.Idx) :
    Glue.inRows (Glue.wrapCol s) k = 1#1 := by
  unfold Glue.inRows
  refine reduce_andi_of_all _ _ _ _ rfl (fun p => ?_) k
  obtain ⟨q, hq⟩ := wrapCol_apply s p
  show IntOp.andi (IntOp.cmpi .sge (Glue.wrapCol s p) 0#32) (IntOp.cmpi .sle (Glue.wrapCol s p) 49999#32) = 1#1
  rw [hq]
  exact wrap_rowTest _ (hs q)

/-- At indices in range the row-take fills nothing in: it is the gather at the wrapped indices. -/
theorem takeRows_eq_gather {F : FTy → Type} [FloatOps F] (h : FVec F S50000x128 .f32) (s : IVec S800000 32) (hs : ∀ e, InRange (s e)) :
    Glue.takeRows h s = Host.gather gather_S50000x128_S800000x1_S800000x128_1_0_n_n_0_1_1128 h (Glue.wrapCol s) := by
  funext i
  unfold Glue.takeRows
  show Scalar.select (Glue.inRows (Glue.wrapCol s) _) _ _ = _
  rw [inRows_wrapCol s hs, select_one]

end Cert.KernelIdeal.Range

end
-- ==== Proof.RefHops.lean ====
/-
  The reference's three aggregates are the kernel's. Per hop h the reference multiplies the features by the h-th weight matrix,
  takes the product's rows at the hop's wrapped source indices, scales them by the hop's edge weights and sums them into the
  hop's destination rows of a zero array; the kernel does the same to slab h of the stacked product x · W, on rows of the
  source, weight and destination arrays cut in another order, and its row-take, at source indices in range, is the same
  gather. So the two aggregates are one array.
-/
import proofs.«426990_j39977555591181_1_alg».proof.Proof.Gen.ReferenceIdeal.Read
import proofs.«426990_j39977555591181_1_alg».proof.Proof.KIHost
import proofs.«426990_j39977555591181_1_alg».proof.Proof.Spec
import proofs.«426990_j39977555591181_1_alg».proof.Proof.KIRange
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.KernelIdeal (S50000x128 S3x128x128 S3x128 S3x800000 S3x2x800000 S800000 S3x50000x128 S1x128)
open Cert.KernelIdeal.Glue

open Cert.KernelIdeal.Range (InRange)

open Cert.ReferenceIdeal.Read

/-! ## The kernel's cuts read at an index

The kernel first cuts the edge list into its source half and its destination half, each 3 × 800000, and then takes row h
of a half; it takes row h of the edge weights and slab h of the stacked product the same way. Each cut, read at an index,
is the array it was cut from at the index with the hop (and the half) put back. -/

/-- The source half at (h, e) is the edge list at (h, 0, e). -/
theorem srcs_apply (l : IVec S3x2x800000 32) (h : Fin 3) (e : Fin 800000) :
    srcs l (ix2 h e) = l (ix3 h (0 : Fin 2) e) := by
  unfold srcs
  refine (shapeCast_apply _ _ (ix2 h e) (ix3 h (0 : Fin 1) e) ?_).trans ?_
  · rewrite [Shape.rowMajor_val_three, Shape.rowMajor_val_two]
    show (h.val * 1 + 0) * 800000 + e.val = h.val * 800000 + e.val
    omega
  · exact extractStridedSlice_apply ![0, 0, 0] l _ (ix3 h (0 : Fin 1) e) (ix3 h (0 : Fin 2) e) (fun a => match a with
      | ⟨0, _⟩ => by show h.val = 0 + h.val; omega
      | ⟨1, _⟩ => by show (0 : Nat) = 0 + 0; omega
      | ⟨2, _⟩ => by show e.val = 0 + e.val; omega)

/-- The destination half at (h, e) is the edge list at (h, 1, e). -/
theorem dsts_apply (l : IVec S3x2x800000 32) (h : Fin 3) (e : Fin 800000) :
    dsts l (ix2 h e) = l (ix3 h (1 : Fin 2) e) := by
  unfold dsts
  refine (shapeCast_apply _ _ (ix2 h e) (ix3 h (0 : Fin 1) e) ?_).trans ?_
  · rewrite [Shape.rowMajor_val_three, Shape.rowMajor_val_two]
    show (h.val * 1 + 0) * 800000 + e.val = h.val * 800000 + e.val
    omega
  · exact extractStridedSlice_apply ![0, 1, 0] l _ (ix3 h (0 : Fin 1) e) (ix3 h (1 : Fin 2) e) (fun a => match a with
      | ⟨0, _⟩ => by show h.val = 0 + h.val; omega
      | ⟨1, _⟩ => by show (1 : Nat) = 1 + 0; omega
      | ⟨2, _⟩ => by show e.val = 0 + e.val; omega)

/-- Row 0 of a 3 × 800000 array at e is the array at (0, e). -/
theorem row0_apply {α : Type} (a : S3x800000.Idx → α) (e : Fin 800000) :
    row0 a (ix1 e) = a (ix2 (0 : Fin 3) e) := by
  unfold row0
  refine (shapeCast_apply _ _ (ix1 e) (ix2 (0 : Fin 1) e) ?_).trans ?_
  · rewrite [Shape.rowMajor_val_two, Shape.rowMajor_val_one]
    show 0 * 800000 + e.val = e.val
    omega
  · exact extractStridedSlice_apply ![0, 0] a _ (ix2 (0 : Fin 1) e) (ix2 (0 : Fin 3) e) (fun b => match b with
      | ⟨0, _⟩ => by show (0 : Nat) = 0 + 0; omega
      | ⟨1, _⟩ => by show e.val = 0 + e.val; omega)

/-- Row 1 of a 3 × 800000 array at e is the array at (1, e). -/
theorem row1_apply {α : Type} (a : S3x800000.Idx → α) (e : Fin 800000) :
    row1 a (ix1 e) = a (ix2 (1 : Fin 3) e) := by
  unfold row1
  refine (shapeCast_apply _ _ (ix1 e) (ix2 (0 : Fin 1) e) ?_).trans ?_
  · rewrite [Shape.rowMajor_val_two, Shape.rowMajor_val_one]
    show 0 * 800000 + e.val = e.val
    omega
  · exact extractStridedSlice_apply ![1, 0] a _ (ix2 (0 : Fin 1) e) (ix2 (1 : Fin 3) e) (fun b => match b with
      | ⟨0, _⟩ => by show (1 : Nat) = 1 + 0; omega
      | ⟨1, _⟩ => by show e.val = 0 + e.val; omega)

/-- Row 2 of a 3 × 800000 array at e is the array at (2, e). -/
theorem row2_apply {α : Type} (a : S3x800000.Idx → α) (e : Fin 800000) :
    row2 a (ix1 e) = a (ix2 (2 : Fin 3) e) := by
  unfold row2
  refine (shapeCast_apply _ _ (ix1 e) (ix2 (0 : Fin 1) e) ?_).trans ?_
  · rewrite [Shape.rowMajor_val_two, Shape.rowMajor_val_one]
    show 0 * 800000 + e.val = e.val
    omega
  · exact extractStridedSlice_apply ![2, 0] a _ (ix2 (0 : Fin 1) e) (ix2 (2 : Fin 3) e) (fun b => match b with
      | ⟨0, _⟩ => by show (2 : Nat) = 2 + 0; omega
      | ⟨1, _⟩ => by show e.val = 0 + e.val; omega)

/-- Slab 0 of a 3 × 50000 × 128 array at (r, u) is the array at (0, r, u). -/
theorem slab0_apply (H : FVec Ideal S3x50000x128 .f32) (r : Fin 50000) (u : Fin 128) :
    slab0 H (ix2 r u) = H (ix3 (0 : Fin 3) r u) := by
  unfold slab0
  refine (shapeCast_apply _ _ (ix2 r u) (ix3 (0 : Fin 1) r u) ?_).trans ?_
  · rewrite [Shape.rowMajor_val_three, Shape.rowMajor_val_two]
    show (0 * 50000 + r.val) * 128 + u.val = r.val * 128 + u.val
    omega
  · exact extractStridedSlice_apply ![0, 0, 0] H _ (ix3 (0 : Fin 1) r u) (ix3 (0 : Fin 3) r u) (fun b => match b with
      | ⟨0, _⟩ => by show (0 : Nat) = 0 + 0; omega
      | ⟨1, _⟩ => by show r.val = 0 + r.val; omega
      | ⟨2, _⟩ => by show u.val = 0 + u.val; omega)

/-- Slab 1 at (r, u) is the array at (1, r, u). -/
theorem slab1_apply (H : FVec Ideal S3x50000x128 .f32) (r : Fin 50000) (u : Fin 128) :
    slab1 H (ix2 r u) = H (ix3 (1 : Fin 3) r u) := by
  unfold slab1
  refine (shapeCast_apply _ _ (ix2 r u) (ix3 (0 : Fin 1) r u) ?_).trans ?_
  · rewrite [Shape.rowMajor_val_three, Shape.rowMajor_val_two]
    show (0 * 50000 + r.val) * 128 + u.val = r.val * 128 + u.val
    omega
  · exact extractStridedSlice_apply ![1, 0, 0] H _ (ix3 (0 : Fin 1) r u) (ix3 (1 : Fin 3) r u) (fun b => match b with
      | ⟨0, _⟩ => by show (1 : Nat) = 1 + 0; omega
      | ⟨1, _⟩ => by show r.val = 0 + r.val; omega
      | ⟨2, _⟩ => by show u.val = 0 + u.val; omega)

/-- Slab 2 at (r, u) is the array at (2, r, u). -/
theorem slab2_apply (H : FVec Ideal S3x50000x128 .f32) (r : Fin 50000) (u : Fin 128) :
    slab2 H (ix2 r u) = H (ix3 (2 : Fin 3) r u) := by
  unfold slab2
  refine (shapeCast_apply _ _ (ix2 r u) (ix3 (0 : Fin 1) r u) ?_).trans ?_
  · rewrite [Shape.rowMajor_val_three, Shape.rowMajor_val_two]
    show (0 * 50000 + r.val) * 128 + u.val = r.val * 128 + u.val
    omega
  · exact extractStridedSlice_apply ![2, 0, 0] H _ (ix3 (0 : Fin 1) r u) (ix3 (2 : Fin 3) r u) (fun b => match b with
      | ⟨0, _⟩ => by show (2 : Nat) = 2 + 0; omega
      | ⟨1, _⟩ => by show r.val = 0 + r.val; omega
      | ⟨2, _⟩ => by show u.val = 0 + u.val; omega)

/-! ## The reference's cuts read at an index

The reference cuts row h of a half straight out of the edge list, [h : h + 1, c : c + 1, :] reshaped to 800000 words, and
likewise row h of the edge weights and the h-th weight matrix. -/

/-- Hop 0's source row at e is the edge list at (0, 0, e). -/
theorem v5_read (l : IVec S3x2x800000 32) (e : Fin 800000) :
    val_main_v5 (F := Ideal) l (ix1 e) = l (ix3 (0 : Fin 3) (0 : Fin 2) e) := by
  rw [val_main_v5_apply, val_main_v4_apply]
  refine congrArg l (funext fun a => Fin.ext ?_)
  match a with
  | ⟨0, _⟩ => rfl
  | ⟨1, _⟩ => rfl
  | ⟨2, _⟩ => exact Nat.mod_eq_of_lt e.isLt

/-- Hop 0's destination row at e is the edge list at (0, 1, e). -/
theorem v7_read (l : IVec S3x2x800000 32) (e : Fin 800000) :
    val_main_v7 (F := Ideal) l (ix1 e) = l (ix3 (0 : Fin 3) (1 : Fin 2) e) := by
  rw [val_main_v7_apply, val_main_v6_apply]
  refine congrArg l (funext fun a => Fin.ext ?_)
  match a with
  | ⟨0, _⟩ => rfl
  | ⟨1, _⟩ => rfl
  | ⟨2, _⟩ => exact Nat.mod_eq_of_lt e.isLt

/-- Hop 0's edge-weight row at e is the edge weights at (0, e). -/
theorem v16_read (w : FVec Ideal S3x800000 .f32) (e : Fin 800000) :
    val_main_v16 (F := Ideal) w (ix1 e) = w (ix2 (0 : Fin 3) e) := by
  rw [val_main_v16_apply, val_main_v15_apply]
  refine congrArg w (funext fun a => Fin.ext ?_)
  match a with
  | ⟨0, _⟩ => rfl
  | ⟨1, _⟩ => exact Nat.mod_eq_of_lt e.isLt

/-- Hop 0's weight matrix at (k, u) is the weights at (0, k, u). -/
theorem v2_read (W : FVec Ideal S3x128x128 .f32) (k u : Fin 128) :
    val_main_v2 (F := Ideal) W (ix2 k u) = W (ix3 (0 : Fin 3) k u) := by
  rw [val_main_v2_apply, val_main_v1_apply]
  refine congrArg W (funext fun a => Fin.ext ?_)
  have hk := k.isLt
  have hu := u.isLt
  match a with
  | ⟨0, _⟩ => rfl
  | ⟨1, _⟩ => show (k.val * 128 + u.val) / 128 % 128 = k.val; omega
  | ⟨2, _⟩ => show (k.val * 128 + u.val) % 128 = u.val; omega

/-- Hop 1's source row at e is the edge list at (1, 0, e). -/
theorem v33_read (l : IVec S3x2x800000 32) (e : Fin 800000) :
    val_main_v33 (F := Ideal) l (ix1 e) = l (ix3 (1 : Fin 3) (0 : Fin 2) e) := by
  rw [val_main_v33_apply, val_main_v32_apply]
  refine congrArg l (funext fun a => Fin.ext ?_)
  match a with
  | ⟨0, _⟩ => rfl
  | ⟨1, _⟩ => rfl
  | ⟨2, _⟩ => exact Nat.mod_eq_of_lt e.isLt

/-- Hop 1's destination row at e is the edge list at (1, 1, e). -/
theorem v35_read (l : IVec S3x2x800000 32) (e : Fin 800000) :
    val_main_v35 (F := Ideal) l (ix1 e) = l (ix3 (1 : Fin 3) (1 : Fin 2) e) := by
  rw [val_main_v35_apply, val_main_v34_apply]
  refine congrArg l (funext fun a => Fin.ext ?_)
  match a with
  | ⟨0, _⟩ => rfl
  | ⟨1, _⟩ => rfl
  | ⟨2, _⟩ => exact Nat.mod_eq_of_lt e.isLt

/-- Hop 1's edge-weight row at e is the edge weights at (1, e). -/
theorem v44_read (w : FVec Ideal S3x800000 .f32) (e : Fin 800000) :
    val_main_v44 (F := Ideal) w (ix1 e) = w (ix2 (1 : Fin 3) e) := by
  rw [val_main_v44_apply, val_main_v43_apply]
  refine congrArg w (funext fun a => Fin.ext ?_)
  match a with
  | ⟨0, _⟩ => rfl
  | ⟨1, _⟩ => exact Nat.mod_eq_of_lt e.isLt

/-- Hop 1's weight matrix at (k, u) is the weights at (1, k, u). -/
theorem v30_read (W : FVec Ideal S3x128x128 .f32) (k u : Fin 128) :
    val_main_v30 (F := Ideal) W (ix2 k u) = W (ix3 (1 : Fin 3) k u) := by
  rw [val_main_v30_apply, val_main_v29_apply]
  refine congrArg W (funext fun a => Fin.ext ?_)
  have hk := k.isLt
  have hu := u.isLt
  match a with
  | ⟨0, _⟩ => rfl
  | ⟨1, _⟩ => show (k.val * 128 + u.val) / 128 % 128 = k.val; omega
  | ⟨2, _⟩ => show (k.val * 128 + u.val) % 128 = u.val; omega

/-- Hop 2's source row at e is the edge list at (2, 0, e). -/
theorem v61_read (l : IVec S3x2x800000 32) (e : Fin 800000) :
    val_main_v61 (F := Ideal) l (ix1 e) = l (ix3 (2 : Fin 3) (0 : Fin 2) e) := by
  rw [val_main_v61_apply, val_main_v60_apply]
  refine congrArg l (funext fun a => Fin.ext ?_)
  match a with
  | ⟨0, _⟩ => rfl
  | ⟨1, _⟩ => rfl
  | ⟨2, _⟩ => exact Nat.mod_eq_of_lt e.isLt

/-- Hop 2's destination row at e is the edge list at (2, 1, e). -/
theorem v63_read (l : IVec S3x2x800000 32) (e : Fin 800000) :
    val_main_v63 (F := Ideal) l (ix1 e) = l (ix3 (2 : Fin 3) (1 : Fin 2) e) := by
  rw [val_main_v63_apply, val_main_v62_apply]
  refine congrArg l (funext fun a => Fin.ext ?_)
  match a with
  | ⟨0, _⟩ => rfl
  | ⟨1, _⟩ => rfl
  | ⟨2, _⟩ => exact Nat.mod_eq_of_lt e.isLt

/-- Hop 2's edge-weight row at e is the edge weights at (2, e). -/
theorem v72_read (w : FVec Ideal S3x800000 .f32) (e : Fin 800000) :
    val_main_v72 (F := Ideal) w (ix1 e) = w (ix2 (2 : Fin 3) e) := by
  rw [val_main_v72_apply, val_main_v71_apply]
  refine congrArg w (funext fun a => Fin.ext ?_)
  match a with
  | ⟨0, _⟩ => rfl
  | ⟨1, _⟩ => exact Nat.mod_eq_of_lt e.isLt

/-- Hop 2's weight matrix at (k, u) is the weights at (2, k, u). -/
theorem v58_read (W : FVec Ideal S3x128x128 .f32) (k u : Fin 128) :
    val_main_v58 (F := Ideal) W (ix2 k u) = W (ix3 (2 : Fin 3) k u) := by
  rw [val_main_v58_apply, val_main_v57_apply]
  refine congrArg W (funext fun a => Fin.ext ?_)
  have hk := k.isLt
  have hu := u.isLt
  match a with
  | ⟨0, _⟩ => rfl
  | ⟨1, _⟩ => show (k.val * 128 + u.val) / 128 % 128 = k.val; omega
  | ⟨2, _⟩ => show (k.val * 128 + u.val) % 128 = u.val; omega

/-! ## The pieces agree -/

section
variable (x0 : FVec Ideal S50000x128 .f32) (x1 : FVec Ideal S3x128x128 .f32) (x3 : FVec Ideal S3x800000 .f32) (x4 : IVec S3x2x800000 32)

/-- Every index of an 800000-vector is built from its one coordinate. -/
theorem exists_ix1 (i : S800000.Idx) : ∃ e : Fin 800000, i = ix1 e := ⟨i 0, eq_ix1 i⟩

/-- Every index of a 50000 × 128 array is built from its two coordinates. -/
theorem exists_ix2 (i : S50000x128.Idx) : ∃ (r : Fin 50000) (u : Fin 128), i = ix2 r u := ⟨i 0, i 1, eq_ix2 i⟩

/-- The kernel's row 0 of the source half is the reference's hop-0 source row: both are the edge list at (0, 0, ·). -/
theorem row0_srcs : row0 (srcs x4) = val_main_v5 (F := Ideal) x4 := by
  funext i
  obtain ⟨e, rfl⟩ := exists_ix1 i
  rw [row0_apply, srcs_apply, v5_read]

/-- Likewise the destination rows, the edge list at (0, 1, ·), -/
theorem row0_dsts : row0 (dsts x4) = val_main_v7 (F := Ideal) x4 := by
  funext i
  obtain ⟨e, rfl⟩ := exists_ix1 i
  rw [row0_apply, dsts_apply, v7_read]

/-- and the edge-weight rows, the edge weights at (0, ·). -/
theorem row0_weights : row0 x3 = val_main_v16 (F := Ideal) x3 := by
  funext i
  obtain ⟨e, rfl⟩ := exists_ix1 i
  rw [row0_apply, v16_read]

/-- Slab 0 of the stacked product is the reference's product with the first weight matrix: entry (r, u) of either is the
    sum over the features k of x[r, k] · W[0, k, u]. -/
theorem slab0_proj : slab0 (Cert.Spec.proj x0 x1) = val_main_v3 (F := Ideal) x0 x1 := by
  funext i
  obtain ⟨r, u, rfl⟩ := exists_ix2 i
  rw [slab0_apply, val_main_v3_apply]
  show ∑ k : Fin 128, x0 (ix2 r k) * x1 (ix3 (0 : Fin 3) k u) = _
  refine Finset.sum_congr rfl fun k _ => ?_
  have el : lidx_main_v3 (ix2 r u) k = ix2 r k := funext fun a => Fin.ext (by
    match a with
    | ⟨0, _⟩ => rfl
    | ⟨1, _⟩ => rfl)
  have er : ridx_main_v3 (ix2 r u) k = ix2 k u := funext fun a => Fin.ext (by
    match a with
    | ⟨0, _⟩ => rfl
    | ⟨1, _⟩ => rfl)
  rw [el, er, v2_read]

/-- Hop 1: the source rows, the edge list at (1, 0, ·), -/
theorem row1_srcs : row1 (srcs x4) = val_main_v33 (F := Ideal) x4 := by
  funext i
  obtain ⟨e, rfl⟩ := exists_ix1 i
  rw [row1_apply, srcs_apply, v33_read]

/-- the destination rows, the edge list at (1, 1, ·), -/
theorem row1_dsts : row1 (dsts x4) = val_main_v35 (F := Ideal) x4 := by
  funext i
  obtain ⟨e, rfl⟩ := exists_ix1 i
  rw [row1_apply, dsts_apply, v35_read]

/-- and the edge-weight rows, the edge weights at (1, ·). -/
theorem row1_weights : row1 x3 = val_main_v44 (F := Ideal) x3 := by
  funext i
  obtain ⟨e, rfl⟩ := exists_ix1 i
  rw [row1_apply, v44_read]

/-- Slab 1 of the stacked product is the reference's product with the second weight matrix. -/
theorem slab1_proj : slab1 (Cert.Spec.proj x0 x1) = val_main_v31 (F := Ideal) x0 x1 := by
  funext i
  obtain ⟨r, u, rfl⟩ := exists_ix2 i
  rw [slab1_apply, val_main_v31_apply]
  show ∑ k : Fin 128, x0 (ix2 r k) * x1 (ix3 (1 : Fin 3) k u) = _
  refine Finset.sum_congr rfl fun k _ => ?_
  have el : lidx_main_v31 (ix2 r u) k = ix2 r k := funext fun a => Fin.ext (by
    match a with
    | ⟨0, _⟩ => rfl
    | ⟨1, _⟩ => rfl)
  have er : ridx_main_v31 (ix2 r u) k = ix2 k u := funext fun a => Fin.ext (by
    match a with
    | ⟨0, _⟩ => rfl
    | ⟨1, _⟩ => rfl)
  rw [el, er, v30_read]

/-- Hop 2: the source rows, the edge list at (2, 0, ·), -/
theorem row2_srcs : row2 (srcs x4) = val_main_v61 (F := Ideal) x4 := by
  funext i
  obtain ⟨e, rfl⟩ := exists_ix1 i
  rw [row2_apply, srcs_apply, v61_read]

/-- the destination rows, the edge list at (2, 1, ·), -/
theorem row2_dsts : row2 (dsts x4) = val_main_v63 (F := Ideal) x4 := by
  funext i
  obtain ⟨e, rfl⟩ := exists_ix1 i
  rw [row2_apply, dsts_apply, v63_read]

/-- and the edge-weight rows, the edge weights at (2, ·). -/
theorem row2_weights : row2 x3 = val_main_v72 (F := Ideal) x3 := by
  funext i
  obtain ⟨e, rfl⟩ := exists_ix1 i
  rw [row2_apply, v72_read]

/-- Slab 2 of the stacked product is the reference's product with the third weight matrix. -/
theorem slab2_proj : slab2 (Cert.Spec.proj x0 x1) = val_main_v59 (F := Ideal) x0 x1 := by
  funext i
  obtain ⟨r, u, rfl⟩ := exists_ix2 i
  rw [slab2_apply, val_main_v59_apply]
  show ∑ k : Fin 128, x0 (ix2 r k) * x1 (ix3 (2 : Fin 3) k u) = _
  refine Finset.sum_congr rfl fun k _ => ?_
  have el : lidx_main_v59 (ix2 r u) k = ix2 r k := funext fun a => Fin.ext (by
    match a with
    | ⟨0, _⟩ => rfl
    | ⟨1, _⟩ => rfl)
  have er : ridx_main_v59 (ix2 r u) k = ix2 k u := funext fun a => Fin.ext (by
    match a with
    | ⟨0, _⟩ => rfl
    | ⟨1, _⟩ => rfl)
  rw [el, er, v58_read]

end

variable (x0 : FVec Ideal S50000x128 .f32) (x1 : FVec Ideal S3x128x128 .f32) (x3 : FVec Ideal S3x800000 .f32) (x4 : IVec S3x2x800000 32)

/-- Hop 0. -/
theorem hop0_eq (hs : ∀ j, InRange (srcs x4 j)) :
    Cert.ReferenceIdeal.Read.val_main_v22 (F := Ideal) x0 x1 x3 x4 = hop0 (Cert.Spec.proj x0 x1) x3 x4 := by
  unfold hop0 aggr
  rw [Cert.KernelIdeal.Range.takeRows_eq_gather _ _ (Cert.KernelIdeal.Range.row0_inRange (srcs x4) hs),
    row0_srcs, row0_dsts, row0_weights, slab0_proj]
  -- Both sides now apply the same operations, in the same order, to the same four arrays; the two programs' dimension
  -- records have the same fields, and their shapes are the same literals.
  rfl

/-- Hop 1. -/
theorem hop1_eq (hs : ∀ j, InRange (srcs x4 j)) :
    Cert.ReferenceIdeal.Read.val_main_v50 (F := Ideal) x0 x1 x3 x4 = hop1 (Cert.Spec.proj x0 x1) x3 x4 := by
  unfold hop1 aggr
  rw [Cert.KernelIdeal.Range.takeRows_eq_gather _ _ (Cert.KernelIdeal.Range.row1_inRange (srcs x4) hs),
    row1_srcs, row1_dsts, row1_weights, slab1_proj]
  -- Both sides now apply the same operations, in the same order, to the same four arrays; the two programs' dimension
  -- records have the same fields, and their shapes are the same literals.
  rfl

/-- Hop 2. -/
theorem hop2_eq (hs : ∀ j, InRange (srcs x4 j)) :
    Cert.ReferenceIdeal.Read.val_main_v78 (F := Ideal) x0 x1 x3 x4 = hop2 (Cert.Spec.proj x0 x1) x3 x4 := by
  unfold hop2 aggr
  rw [Cert.KernelIdeal.Range.takeRows_eq_gather _ _ (Cert.KernelIdeal.Range.row2_inRange (srcs x4) hs),
    row2_srcs, row2_dsts, row2_weights, slab2_proj]
  -- Both sides now apply the same operations, in the same order, to the same four arrays; the two programs' dimension
  -- records have the same fields, and their shapes are the same literals.
  rfl

end Cert.Bridge

end
-- ==== Proof.RefSum.lean ====
/-
  The reference's last stage in the kernel's grouping. The reference starts from a zero array and adds, hop by hop, the hop's
  aggregate and then the hop's bias row, and clamps below at zero; the kernel adds the three aggregates, then the three bias
  rows summed beforehand (from zero), and clamps. On the extended reals addition is commutative and associative and zero is
  its unit, so entry by entry the two are the same number — no finiteness is used.
-/
import proofs.«426990_j39977555591181_1_alg».proof.Proof.Gen.ReferenceIdeal.Read
import proofs.«426990_j39977555591181_1_alg».proof.Proof.KIHost
import proofs.«426990_j39977555591181_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.KernelIdeal (S50000x128 S3x128x128 S3x128 S3x800000 S3x2x800000 S800000 S3x50000x128 S1x128)
open Cert.KernelIdeal.Glue

variable (x0 : FVec Ideal S50000x128 .f32) (x1 : FVec Ideal S3x128x128 .f32) (x2 : FVec Ideal S3x128 .f32) (x3 : FVec Ideal S3x800000 .f32) (x4 : IVec S3x2x800000 32)

/-- Slab 0 of a stack of three arrays is the first array, -/
theorem stack_at0 (a0 a1 a2 : FVec Ideal S50000x128 .f32) (r : Fin 50000) (u : Fin 128) :
    stack a0 a1 a2 (ix3 (0 : Fin 3) r u) = a0 (ix2 r u) := by
  unfold stack
  refine Eq.trans (concatenate_apply_piece (t := Cert.KernelIdeal.S3x50000x128) _ _ _ _ 0 ?_ Cert.KernelIdeal.S1x50000x128
    (broadcastInDim Cert.KernelIdeal.S1x50000x128 ![1, 2] Cert.KernelIdeal.Gen.bcast_S50000x128_S1x50000x128_1_2 a0)
    ?_ rfl 0 ?_ (ix3 (0 : Fin 1) r u) ?_ ?_) ?_
  · show (0 : Nat) < 3; decide
  · rfl
  · rfl
  · intro b hb
    match b, hb with
    | ⟨0, _⟩, hb => exact absurd rfl hb
    | ⟨1, _⟩, _ => rfl
    | ⟨2, _⟩, _ => rfl
  · rfl
  · exact broadcastInDim_apply _ _ a0 _ (ix2 r u) (fun a => match a with
      | ⟨0, _⟩ => by show r.val = if (50000 : Nat) = 1 then 0 else r.val; rw [if_neg (by decide)]
      | ⟨1, _⟩ => by show u.val = if (128 : Nat) = 1 then 0 else u.val; rw [if_neg (by decide)])

/-- slab 1 the second, -/
theorem stack_at1 (a0 a1 a2 : FVec Ideal S50000x128 .f32) (r : Fin 50000) (u : Fin 128) :
    stack a0 a1 a2 (ix3 (1 : Fin 3) r u) = a1 (ix2 r u) := by
  unfold stack
  refine Eq.trans (concatenate_apply_piece (t := Cert.KernelIdeal.S3x50000x128) _ _ _ _ 1 ?_ Cert.KernelIdeal.S1x50000x128
    (broadcastInDim Cert.KernelIdeal.S1x50000x128 ![1, 2] Cert.KernelIdeal.Gen.bcast_S50000x128_S1x50000x128_1_2 a1)
    ?_ rfl 1 ?_ (ix3 (0 : Fin 1) r u) ?_ ?_) ?_
  · show (1 : Nat) < 3; decide
  · rfl
  · rfl
  · intro b hb
    match b, hb with
    | ⟨0, _⟩, hb => exact absurd rfl hb
    | ⟨1, _⟩, _ => rfl
    | ⟨2, _⟩, _ => rfl
  · rfl
  · exact broadcastInDim_apply _ _ a1 _ (ix2 r u) (fun a => match a with
      | ⟨0, _⟩ => by show r.val = if (50000 : Nat) = 1 then 0 else r.val; rw [if_neg (by decide)]
      | ⟨1, _⟩ => by show u.val = if (128 : Nat) = 1 then 0 else u.val; rw [if_neg (by decide)])

/-- slab 2 the third. -/
theorem stack_at2 (a0 a1 a2 : FVec Ideal S50000x128 .f32) (r : Fin 50000) (u : Fin 128) :
    stack a0 a1 a2 (ix3 (2 : Fin 3) r u) = a2 (ix2 r u) := by
  unfold stack
  refine Eq.trans (concatenate_apply_piece (t := Cert.KernelIdeal.S3x50000x128) _ _ _ _ 2 ?_ Cert.KernelIdeal.S1x50000x128
    (broadcastInDim Cert.KernelIdeal.S1x50000x128 ![1, 2] Cert.KernelIdeal.Gen.bcast_S50000x128_S1x50000x128_1_2 a2)
    ?_ rfl 2 ?_ (ix3 (0 : Fin 1) r u) ?_ ?_) ?_
  · show (2 : Nat) < 3; decide
  · rfl
  · rfl
  · intro b hb
    match b, hb with
    | ⟨0, _⟩, hb => exact absurd rfl hb
    | ⟨1, _⟩, _ => rfl
    | ⟨2, _⟩, _ => rfl
  · rfl
  · exact broadcastInDim_apply _ _ a2 _ (ix2 r u) (fun a => match a with
      | ⟨0, _⟩ => by show r.val = if (50000 : Nat) = 1 then 0 else r.val; rw [if_neg (by decide)]
      | ⟨1, _⟩ => by show u.val = if (128 : Nat) = 1 then 0 else u.val; rw [if_neg (by decide)])

/-- The summed bias row at column u: zero plus the three bias rows' entries there. -/
theorem biasRow_at (b : FVec Ideal S3x128 .f32) (u : Fin 128) :
    biasRow b (ix2 (0 : Fin 1) u) = 0 + (b (ix2 (0 : Fin 3) u) + b (ix2 (1 : Fin 3) u) + b (ix2 (2 : Fin 3) u)) := by
  unfold biasRow
  rw [shapeCast_apply _ Cert.KernelIdeal.Gen.shapeCasts_S128_S1x128 (ix2 (0 : Fin 1) u) (ix1 u)
    (by rewrite [Shape.rowMajor_val_two, Shape.rowMajor_val_one]; show u.val = 0 * 128 + u.val; omega)]
  show Ideal.hostReduceAdd Cert.KernelIdeal.Gen.reducesTo_S3x128_S128_d0 b
    (constant (F := Ideal) Cert.KernelIdeal.S_ .f32 0x00000000#32 (Shape.Idx.first Cert.KernelIdeal.Gen.h_S_)) (ix1 u) = _
  rw [Ideal.hostReduceAdd_single Cert.KernelIdeal.Gen.reducesTo_S3x128_S128_d0 (by decide), constant_apply,
    Ideal.ofBits_zero_f32]
  refine congrArg (fun y : EReal => 0 + y) ?_
  have e : ∀ (h : Shape.Reduces Cert.KernelIdeal.S3x128 [0] Cert.KernelIdeal.S128) (k : Fin 3),
      h.lift (ix1 u) k = ix2 k u := by
    intro h k
    funext a
    match a with
    | ⟨0, _⟩ => exact Fin.ext rfl
    | ⟨1, _⟩ => exact Fin.ext rfl
  refine (Fin.sum_univ_three _).trans ?_
  rw [e, e, e]

/-- The reference's broadcast of bias row 0 to 50000 × 128 reads, at (r, u), the bias array at (0, u); -/
theorem bias_idx0 (r : Fin 50000) (u : Fin 128) :
    Cert.ReferenceIdeal.Read.idx_main_v24 (Cert.ReferenceIdeal.Read.idx_main_v25
      (Cert.ReferenceIdeal.Read.idx_main_v26 (Cert.ReferenceIdeal.Read.idx_main_v27 (ix2 r u))))
      = ix2 (0 : Fin 3) u := by
  funext a
  match a with
  | ⟨0, _⟩ => exact Fin.ext rfl
  | ⟨1, _⟩ => exact Fin.ext (Nat.mod_eq_of_lt u.isLt)

/-- of bias row 1, at (1, u); -/
theorem bias_idx1 (r : Fin 50000) (u : Fin 128) :
    Cert.ReferenceIdeal.Read.idx_main_v52 (Cert.ReferenceIdeal.Read.idx_main_v53
      (Cert.ReferenceIdeal.Read.idx_main_v54 (Cert.ReferenceIdeal.Read.idx_main_v55 (ix2 r u))))
      = ix2 (1 : Fin 3) u := by
  funext a
  match a with
  | ⟨0, _⟩ => exact Fin.ext rfl
  | ⟨1, _⟩ => exact Fin.ext (Nat.mod_eq_of_lt u.isLt)

/-- of bias row 2, at (2, u). -/
theorem bias_idx2 (r : Fin 50000) (u : Fin 128) :
    Cert.ReferenceIdeal.Read.idx_main_v80 (Cert.ReferenceIdeal.Read.idx_main_v81
      (Cert.ReferenceIdeal.Read.idx_main_v82 (Cert.ReferenceIdeal.Read.idx_main_v83 (ix2 r u))))
      = ix2 (2 : Fin 3) u := by
  funext a
  match a with
  | ⟨0, _⟩ => exact Fin.ext rfl
  | ⟨1, _⟩ => exact Fin.ext (Nat.mod_eq_of_lt u.isLt)

/-- The reference's result is the clamped sum of its three aggregates, stacked, and the summed bias row. -/
theorem ref_eq_fin :
    Cert.ReferenceIdeal.Read.val_main_v85 (F := Ideal) x0 x1 x2 x3 x4
      = Cert.Spec.fin (stack (Cert.ReferenceIdeal.Read.val_main_v22 (F := Ideal) x0 x1 x3 x4) (Cert.ReferenceIdeal.Read.val_main_v50 (F := Ideal) x0 x1 x3 x4) (Cert.ReferenceIdeal.Read.val_main_v78 (F := Ideal) x0 x1 x3 x4))
          (biasRow x2) := by
  funext i
  obtain ⟨r, u, rfl⟩ : ∃ (r : Fin 50000) (u : Fin 128), i = ix2 r u := ⟨i 0, i 1, eq_ix2 i⟩
  open Cert.ReferenceIdeal.Read in
  rw [val_main_v85_apply, val_main_v84_apply, val_main_v79_apply, val_main_v56_apply, val_main_v51_apply,
    val_main_v28_apply, val_main_v23_apply,
    val_main_v83_apply, val_main_v82_apply, val_main_v81_apply, val_main_v80_apply,
    val_main_v55_apply, val_main_v54_apply, val_main_v53_apply, val_main_v52_apply,
    val_main_v27_apply, val_main_v26_apply, val_main_v25_apply, val_main_v24_apply,
    val_main_v0_apply, val_main_cst_apply, val_main_call0_v0_apply, val_main_call0_cst_apply]
  generalize Cert.ReferenceIdeal.Read.val_main_v22 (F := Ideal) x0 x1 x3 x4 = a0
  generalize Cert.ReferenceIdeal.Read.val_main_v50 (F := Ideal) x0 x1 x3 x4 = a1
  generalize Cert.ReferenceIdeal.Read.val_main_v78 (F := Ideal) x0 x1 x3 x4 = a2
  rw [bias_idx0, bias_idx1, bias_idx2]
  show _ = max (stack a0 a1 a2 (ix3 (0 : Fin 3) r u) + stack a0 a1 a2 (ix3 (1 : Fin 3) r u)
    + stack a0 a1 a2 (ix3 (2 : Fin 3) r u) + biasRow x2 (ix2 (0 : Fin 1) u)) 0
  rw [stack_at0, stack_at1, stack_at2, biasRow_at]
  simp only [Ideal.addf_def, Ideal.maximumf_def, Ideal.ofBits_def, Ideal.ofBits_zero_f32]
  rw [zero_add, zero_add]
  refine congrArg (fun y : EReal => max y 0) ?_
  ac_rfl

end Cert.Bridge

end
-- ==== Proof.lean ====
/-
  A graph message-passing layer (three hops): out = relu( Σ_h  segment_sum( (x · W_h)[src_h] · w_h , dst_h )  +  b_h ).
  The kernel computes the three products x · W_h in one pallas_call (the operands rounded to bf16 on the way into the matrix
  unit, which on the extended reals is the identity, the accumulator starting at zero), does the row gather, the scaling by
  the edge weights and the scatter-add on the host, and in a second pallas_call adds the three aggregates and the bias rows
  (summed on the host) and clamps below at zero. The reference does the same hop by hop, adding each hop's aggregate and
  bias row to a running array that starts at zero.
  The two differ in one place: the kernel takes rows by a take that replaces the row of an out-of-range index by a fill
  value, the reference by a bare gather; so the claim is made under the precondition that every source index is a row
  index of the 50000-row table (counted from the start or, negative, from the end), where the fill never applies.
  Under it both results are, entry by entry, max(A₀ + A₁ + A₂ + b₀ + b₁ + b₂, 0) with A_h the same aggregate: addition on
  the extended reals is commutative and associative with unit zero, and nothing else about the numbers is used.
  The three frames: each program terminates on every weakly fair execution, faults nowhere, and leaves its arguments as
  launched — for the two kernel programs by running both pallas_calls' pipelines between the host stretches, for the
  reference by its host operations in order.
-/
import proofs.«426990_j39977555591181_1_alg».proof.Defs
import proofs.«426990_j39977555591181_1_alg».proof.Proof.Gen.Kernel
import proofs.«426990_j39977555591181_1_alg».proof.Proof.Gen.KernelIdeal
import proofs.«426990_j39977555591181_1_alg».proof.Proof.Gen.ReferenceIdeal
import proofs.«426990_j39977555591181_1_alg».proof.Proof.Gen.Pre_finite_inputs
import proofs.«426990_j39977555591181_1_alg».proof.Proof.KRun
import proofs.«426990_j39977555591181_1_alg».proof.Proof.KIResult
import proofs.«426990_j39977555591181_1_alg».proof.Proof.Gen.ReferenceIdeal.Read
import proofs.«426990_j39977555591181_1_alg».proof.Proof.KIRange
import proofs.«426990_j39977555591181_1_alg».proof.Proof.RefHops
import proofs.«426990_j39977555591181_1_alg».proof.Proof.RefSum

noncomputable section

namespace Cert.Proof

open Idealize.ShloMosaic Idealize.SL.Sem

/-- The word-level kernel program runs and keeps its arguments. -/
theorem frame_k : Cert.frame_Kernel := fun m ρ _ => Cert.Kernel.Whole.frame (F := Bits) m ρ

/-- The idealized kernel program runs and keeps its arguments. -/
theorem frame_ki : Cert.frame_KernelIdeal := fun m ρ _ => Cert.KernelIdeal.Whole.frame (F := Ideal) m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result: the kernel's is
    max(A₀ + A₁ + A₂ + β, 0) of its own aggregates and summed bias; the reference's last stage regroups to the same
    expression of ITS aggregates; and hop by hop the aggregates are one array, the source indices being in range. -/
theorem algebraic : Cert.algebraic_KernelIdeal_ReferenceIdeal := by
  intro m ρ m' ρ' hpre hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  have hs := fun j => Cert.KernelIdeal.Range.srcs_inRange m hpre c j
  rw [Cert.ReferenceIdeal.Read.val_main_v85_eq, (hagree c).1, (hagree c).2.1, (hagree c).2.2.1, (hagree c).2.2.2.1, (hagree c).2.2.2.2,
    Cert.Bridge.ref_eq_fin, Cert.Bridge.hop0_eq _ _ _ _ hs, Cert.Bridge.hop1_eq _ _ _ _ hs, Cert.Bridge.hop2_eq _ _ _ _ hs]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
